-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S16x1024 : Shape := ⟨2, ![16, 1024]⟩
abbrev S16x2000x2 : Shape := ⟨3, ![16, 2000, 2]⟩
abbrev S16 : Shape := ⟨1, ![16]⟩
abbrev S256x256 : Shape := ⟨2, ![256, 256]⟩
abbrev S256 : Shape := ⟨1, ![256]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x1024x256 .f32) (main_arg1 : FVec F S16x1024 .f32) (main_arg2 : IVec S16x2000x2 32) (main_arg3 : IVec S16 32) (main_arg4 : FVec F S256x256 .f32) (main_arg5 : FVec F S256x256 .f32) (main_arg6 : FVec F S256 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S16x1024x256 : Shape := ⟨3, ![16, 1024, 256]⟩
abbrev S16x1024 : Shape := ⟨2, ![16, 1024]⟩
abbrev S16x2000x2 : Shape := ⟨3, ![16, 2000, 2]⟩
abbrev S16 : Shape := ⟨1, ![16]⟩
abbrev S256x256 : Shape := ⟨2, ![256, 256]⟩
abbrev S256 : Shape := ⟨1, ![256]⟩
abbrev S16x1x1024 : Shape := ⟨3, ![16, 1, 1024]⟩
abbrev S16x1024x1024 : Shape := ⟨3, ![16, 1024, 1024]⟩
abbrev S1x1024x256 : Shape := ⟨3, ![1, 1024, 256]⟩
abbrev S1x1x1024 : Shape := ⟨3, ![1, 1, 1024]⟩
abbrev S1x512x1024 : Shape := ⟨3, ![1, 512, 1024]⟩
abbrev S1024x256 : Shape := ⟨2, ![1024, 256]⟩
abbrev S1x1024 : Shape := ⟨2, ![1, 1024]⟩
abbrev S1024x1 : Shape := ⟨2, ![1024, 1]⟩
abbrev S1x512x256 : Shape := ⟨3, ![1, 512, 256]⟩
abbrev S512x256 : Shape := ⟨2, ![512, 256]⟩
abbrev S1x1x512 : Shape := ⟨3, ![1, 1, 512]⟩
abbrev S1x512 : Shape := ⟨2, ![1, 512]⟩
abbrev S512x1 : Shape := ⟨2, ![512, 1]⟩
abbrev S1x256 : Shape := ⟨2, ![1, 256]⟩
abbrev S512x1024 : Shape := ⟨2, ![512, 1024]⟩
abbrev S512 : Shape := ⟨1, ![512]⟩
abbrev S16x2000x1 : Shape := ⟨3, ![16, 2000, 1]⟩
abbrev S16x2000 : Shape := ⟨2, ![16, 2000]⟩
abbrev S16x1 : Shape := ⟨2, ![16, 1]⟩
abbrev S_ : Shape := ⟨0, ![]⟩
abbrev S16x2000x3 : Shape := ⟨3, ![16, 2000, 3]⟩
abbrev S2000 : Shape := ⟨1, ![2000]⟩
abbrev S1x2000 : Shape := ⟨2, ![1, 2000]⟩

abbrev nBuf : Space → Nat
  | .hbm => 92
  | .vmem => 13
  | .smem => 0
  | _ => 0

abbrev bufTy : (tb : Table) → Fin (tcTables nBuf tb) → BufTy
  | .hbm, ⟨0, _⟩ => ⟨S16x1024x256, .f32⟩
  | .hbm, ⟨1, _⟩ => ⟨S16x1024, .f32⟩
  | .hbm, ⟨2, _⟩ => ⟨S16x2000x2, .i32⟩
  | .hbm, ⟨3, _⟩ => ⟨S16, .i32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S16x1x1024, .f32⟩
  | .hbm, ⟨8, _⟩ => ⟨S16x1024x1024, .f32⟩
  | .hbm, ⟨9, _⟩ => ⟨S16x1024x256, .f32⟩
  | .hbm, ⟨10, _⟩ => ⟨S16x2000x1, .i32⟩
  | .hbm, ⟨11, _⟩ => ⟨S16x2000, .i32⟩
  | .hbm, ⟨12, _⟩ => ⟨S16x2000x1, .i32⟩
  | .hbm, ⟨13, _⟩ => ⟨S16x2000, .i32⟩
  | .hbm, ⟨14, _⟩ => ⟨S16, .i32⟩
  | .hbm, ⟨15, _⟩ => ⟨S16x1, .i32⟩
  | .hbm, ⟨16, _⟩ => ⟨S_, .i32⟩
  | .hbm, ⟨17, _⟩ => ⟨S16x1, .i32⟩
  | .hbm, ⟨18, _⟩ => ⟨S16x1, .i1⟩
  | .hbm, ⟨19, _⟩ => ⟨S_, .i32⟩
  | .hbm, ⟨20, _⟩ => ⟨S16x1, .i32⟩
  | .hbm, ⟨21, _⟩ => ⟨S16x1, .i32⟩
  | .hbm, ⟨22, _⟩ => ⟨S16x1, .i32⟩
  | .hbm, ⟨23, _⟩ => ⟨S_, .i32⟩
  | .hbm, ⟨24, _⟩ => ⟨S16x2000, .i32⟩
  | .hbm, ⟨25, _⟩ => ⟨S16x2000, .i1⟩
  | .hbm, ⟨26, _⟩ => ⟨S_, .i32⟩
  | .hbm, ⟨27, _⟩ => ⟨S16x2000, .i32⟩
  | .hbm, ⟨28, _⟩ => ⟨S16x2000, .i32⟩
  | .hbm, ⟨29, _⟩ => ⟨S16x2000, .i32⟩
  | .hbm, ⟨30, _⟩ => ⟨S_, .i32⟩
  | .hbm, ⟨31, _⟩ => ⟨S16x2000, .i32⟩
  | .hbm, ⟨32, _⟩ => ⟨S16x2000, .i1⟩
  | .hbm, ⟨33, _⟩ => ⟨S_, .i32⟩
  | .hbm, ⟨34, _⟩ => ⟨S16x2000, .i32⟩
  | .hbm, ⟨35, _⟩ => ⟨S16x2000, .i32⟩
  | .hbm, ⟨36, _⟩ => ⟨S16x2000, .i32⟩
  | .hbm, ⟨37, _⟩ => ⟨S16x2000, .i32⟩
  | .hbm, ⟨38, _⟩ => ⟨S16x2000x1, .i32⟩
  | .hbm, ⟨39, _⟩ => ⟨S16x2000x1, .i32⟩
  | .hbm, ⟨40, _⟩ => ⟨S16x2000x1, .i32⟩
  | .hbm, ⟨41, _⟩ => ⟨S16x2000x3, .i32⟩
  | .hbm, ⟨42, _⟩ => ⟨S16x2000, .f32⟩
  | .hbm, ⟨43, _⟩ => ⟨S_, .i32⟩
  | .hbm, ⟨44, _⟩ => ⟨S16x1, .i32⟩
  | .hbm, ⟨45, _⟩ => ⟨S16x1, .i1⟩
  | .hbm, ⟨46, _⟩ => ⟨S_, .i32⟩
  | .hbm, ⟨47, _⟩ => ⟨S16x1, .i32⟩
  | .hbm, ⟨48, _⟩ => ⟨S16x1, .i32⟩
  | .hbm, ⟨49, _⟩ => ⟨S16x1, .i32⟩
  | .hbm, ⟨50, _⟩ => ⟨S_, .i32⟩
  | .hbm, ⟨51, _⟩ => ⟨S16x2000, .i32⟩
  | .hbm, ⟨52, _⟩ => ⟨S16x2000, .i1⟩
  | .hbm, ⟨53, _⟩ => ⟨S_, .i32⟩
  | .hbm, ⟨54, _⟩ => ⟨S16x2000, .i32⟩
  | .hbm, ⟨55, _⟩ => ⟨S16x2000, .i32⟩
  | .hbm, ⟨56, _⟩ => ⟨S16x2000, .i32⟩
  | .hbm, ⟨57, _⟩ => ⟨S_, .i32⟩
  | .hbm, ⟨58, _⟩ => ⟨S16x2000, .i32⟩
  | .hbm, ⟨59, _⟩ => ⟨S16x2000, .i1⟩
  | .hbm, ⟨60, _⟩ => ⟨S_, .i32⟩
  | .hbm, ⟨61, _⟩ => ⟨S16x2000, .i32⟩
  | .hbm, ⟨62, _⟩ => ⟨S16x2000, .i32⟩
  | .hbm, ⟨63, _⟩ => ⟨S16x2000, .i32⟩
  | .hbm, ⟨64, _⟩ => ⟨S16x2000, .i32⟩
  | .hbm, ⟨65, _⟩ => ⟨S16x2000x1, .i32⟩
  | .hbm, ⟨66, _⟩ => ⟨S16x2000x1, .i32⟩
  | .hbm, ⟨67, _⟩ => ⟨S16x2000x1, .i32⟩
  | .hbm, ⟨68, _⟩ => ⟨S16x2000x3, .i32⟩
  | .hbm, ⟨69, _⟩ => ⟨S16x2000, .f32⟩
  | .hbm, ⟨70, _⟩ => ⟨S2000, .i32⟩
  | .hbm, ⟨71, _⟩ => ⟨S1x2000, .i32⟩
  | .hbm, ⟨72, _⟩ => ⟨S16x1, .i32⟩
  | .hbm, ⟨73, _⟩ => ⟨S16x2000, .i32⟩
  | .hbm, ⟨74, _⟩ => ⟨S16x2000, .i32⟩
  | .hbm, ⟨75, _⟩ => ⟨S16x2000, .i1⟩
  | .hbm, ⟨76, _⟩ => ⟨S16x2000, .f32⟩
  | .hbm, ⟨77, _⟩ => ⟨S16x2000, .f32⟩
  | .hbm, ⟨78, _⟩ => ⟨S16x2000, .f32⟩
  | .hbm, ⟨79, _⟩ => ⟨S16x2000, .f32⟩
  | .hbm, ⟨80, _⟩ => ⟨S16x2000, .f32⟩
  | .hbm, ⟨81, _⟩ => ⟨S_, .f32⟩
  | .hbm, ⟨82, _⟩ => ⟨S16x2000, .f32⟩
  | .hbm, ⟨83, _⟩ => ⟨S16x2000, .f32⟩
  | .hbm, ⟨84, _⟩ => ⟨S_, .f32⟩
  | .hbm, ⟨85, _⟩ => ⟨S16x2000, .f32⟩
  | .hbm, ⟨86, _⟩ => ⟨S16x2000, .f32⟩
  | .hbm, ⟨87, _⟩ => ⟨S16x2000, .f32⟩
  | .hbm, ⟨88, _⟩ => ⟨S16x2000, .f32⟩
  | .hbm, ⟨89, _⟩ => ⟨S16x2000, .f32⟩
  | .hbm, ⟨90, _⟩ => ⟨S_, .f32⟩
  | .hbm, ⟨91, _⟩ => ⟨S_, .f32⟩
  | .local _ .vmem, ⟨0, _⟩ => ⟨S1x1024x256, .f32⟩
  | .local _ .vmem, ⟨1, _⟩ => ⟨S1x1024x256, .f32⟩
  | .local _ .vmem, ⟨2, _⟩ => ⟨S1x1x1024, .f32⟩
  | .local _ .vmem, ⟨3, _⟩ => ⟨S1x1x1024, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S1x512x1024, .f32⟩
  | .local _ .vmem, ⟨8, _⟩ => ⟨S1x512x1024, .f32⟩
  | .local _ .vmem, ⟨9, _⟩ => ⟨S1x1024x256, .f32⟩
  | .local _ .vmem, ⟨10, _⟩ => ⟨S1x1024x256, .f32⟩
  | .local _ .vmem, ⟨11, _⟩ => ⟨S1024x256, .f32⟩
  | .local _ .vmem, ⟨12, _⟩ => ⟨S1024x256, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_off2 (i : grid0.Coords) : Fin 3 → Nat :=
  let c0_4 : Index := 0#32
  let c0_5 : Index := 0#32
  let arg1 : BitVec 32 := BitVec.ofNat 32 (i 1).val
  let c512_i32 : BitVec 32 := 512#32
  let v3 : BitVec 32 := Scalar.muli arg1 c512_i32
  let v4 : BitVec 32 := v3
  let v12 : Index := Scalar.indexCast v4
  ![0, 0, v12.toNat]
def k0_cond2 (i : grid0.Coords) : BitVec 1 :=
  let arg1 : BitVec 32 := BitVec.ofNat 32 (i 1).val
  let c1_i32 : BitVec 32 := 1#32
  let v60 : BitVec 1 := Scalar.cmpi .eq arg1 c1_i32
  let v61 : BitVec 32 := Scalar.extui v60
  let c0_i32_26 : BitVec 32 := 0#32
  let v62 : BitVec 1 := Scalar.cmpi .ne v61 c0_i32_26
  v62

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S16x1024_S16x1x1024_0_2 : S16x1024.BroadcastsInDim S16x1x1024 (![0, 2] : Fin 2 → Fin S16x1x1024.rank)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  transposes_S1x1024_p1_0_S1024x1 : S1x1024.Transposes [1, 0] S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S1x512x256 : 0 < S1x512x256.numel
  shapeCasts_S1x512x256_S512x256 : S1x512x256.ShapeCasts S512x256
  h_S1x1x512 : 0 < S1x1x512.numel
  shapeCasts_S1x1x512_S1x512 : S1x1x512.ShapeCasts S1x512
  transposes_S1x512_p1_0_S512x1 : S1x512.Transposes [1, 0] S512x1
  broadcasts_S512x1_S512x256 : S512x1.Broadcasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S1024x256_S1x1024x256 : S1024x256.ShapeCasts S1x1024x256
  slices_S16x2000x2_S16x2000x1_0_0_0 : S16x2000x2.Slices ![0, 0, 0] S16x2000x1
  shapeCasts_S16x2000x1_S16x2000 : S16x2000x1.ShapeCasts S16x2000
  slices_S16x2000x2_S16x2000x1_0_0_1 : S16x2000x2.Slices ![0, 0, 1] S16x2000x1
  bcast_S16_S16x1_0 : S16.BroadcastsInDim S16x1 (![0] : Fin 1 → Fin S16x1.rank)
  bcast_S_S16x1 : S_.BroadcastsInDim S16x1 (![] : Fin 0 → Fin S16x1.rank)
  bcast_S_S16x2000 : S_.BroadcastsInDim S16x2000 (![] : Fin 0 → Fin S16x2000.rank)
  bcast_S16x1_S16x2000_0_1 : S16x1.BroadcastsInDim S16x2000 (![0, 1] : Fin 2 → Fin S16x2000.rank)
  bcast_S16x2000_S16x2000x1_0_1 : S16x2000.BroadcastsInDim S16x2000x1 (![0, 1] : Fin 2 → Fin S16x2000x1.rank)
  concatenates_S16x2000x1_S16x2000x1_S16x2000x1_S16x2000x3_d2 : Shape.Concatenates [S16x2000x1, S16x2000x1, S16x2000x1] S16x2000x3 2
  bcast_S2000_S1x2000_1 : S2000.BroadcastsInDim S1x2000 (![1] : Fin 1 → Fin S1x2000.rank)
  bcast_S1x2000_S16x2000_0_1 : S1x2000.BroadcastsInDim S16x2000 (![0, 1] : Fin 2 → Fin S16x2000.rank)
  reducesTo_S16x2000_S_d0_1 : S16x2000.ReducesTo [0, 1] S_
  h_S_ : 0 < S_.numel
  dot_S1024x256_S256x256_S1024x256_1_1_0_0_n_n_wf : DotDims.WF S1024x256 S256x256 S1024x256 [1] [1] [0] [0] [] []
  dot_S512x256_S256x256_S512x256_1_1_0_0_n_n_wf : DotDims.WF S512x256 S256x256 S512x256 [1] [1] [0] [0] [] []
  dot_S512x256_S1024x256_S512x1024_1_1_0_0_n_n_wf : DotDims.WF S512x256 S1024x256 S512x1024 [1] [1] [0] [0] [] []
  dot_S512x1024_S512x256_S1024x256_0_0_1_1_n_n_wf : DotDims.WF S512x1024 S512x256 S1024x256 [0] [0] [1] [1] [] []
  gather_S16x1024x1024_S16x2000x3_S16x2000_n_012_n_n_012_2_111_wf : GatherDims.WF S16x1024x1024 S16x2000x3 S16x2000 [] [0, 1, 2] [] [0, 1, 2] [] 2 ![1, 1, 1]
  hrank0 : 0 < grid0.rank
  k0_mult1_dvd : ∀ i : grid0.Coords, 512 ∣ (k0_mult1 i).toNat
  k0_off1_inb : ∀ i : grid0.Coords, ∀ a, (k0_off1 i) a + S1x512x256.size a ≤ S1x1024x256.size a
  k0_off2_inb : ∀ i : grid0.Coords, ∀ a, (k0_off2 i) a + S1x1x512.size a ≤ S1x1x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S16x1024x1024.size a
  hwx0_5 : ∀ i : grid0.Coords, EltTy.bits .f32 = 32 ∨ (Rect.block (s := S16x1024x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S16x1024x256.size a
  hwx0_6 : ∀ i : grid0.Coords, EltTy.bits .f32 = 32 ∨ (Rect.block (s := S16x1024x256) S1x1024x256.size (cc0_transform_6 i) (hinb0_6 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S512x256_S1024x256_0_0_1_1_n_n : DotDims S512x1024 S512x256 S1024x256 where
  lhsContracting := [0]
  rhsContracting := [0]
  lhsNonContracting := [1]
  rhsNonContracting := [1]
  lhsBatch := []
  rhsBatch := []
  wf := dot_S512x1024_S512x256_S1024x256_0_0_1_1_n_n_wf
def gather_S16x1024x1024_S16x2000x3_S16x2000_n_012_n_n_012_2_111 : GatherDims S16x1024x1024 S16x2000x3 S16x2000 where
  offsetDims := []
  collapsedSliceDims := [0, 1, 2]
  operandBatchingDims := []
  startIndicesBatchingDims := []
  startIndexMap := [0, 1, 2]
  indexVectorDim := 2
  sliceSizes := ![1, 1, 1]
  wf := gather_S16x1024x1024_S16x2000x3_S16x2000_n_012_n_n_012_2_111_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x1024x256 : Shape := ⟨3, ![16, 1024, 256]⟩
abbrev S16x1024 : Shape := ⟨2, ![16, 1024]⟩
abbrev S16x2000x2 : Shape := ⟨3, ![16, 2000, 2]⟩
abbrev S16 : Shape := ⟨1, ![16]⟩
abbrev S256x256 : Shape := ⟨2, ![256, 256]⟩
abbrev S256 : Shape := ⟨1, ![256]⟩
abbrev S16x1024x1 : Shape := ⟨3, ![16, 1024, 1]⟩
abbrev S_ : Shape := ⟨0, ![]⟩
abbrev S1x1x256 : Shape := ⟨3, ![1, 1, 256]⟩
abbrev S16x1024x1024 : Shape := ⟨3, ![16, 1024, 1024]⟩
abbrev S16x1x1024 : Shape := ⟨3, ![16, 1, 1024]⟩
abbrev S16x2000x1 : Shape := ⟨3, ![16, 2000, 1]⟩
abbrev S16x2000 : Shape := ⟨2, ![16, 2000]⟩
abbrev S16x1 : Shape := ⟨2, ![16, 1]⟩
abbrev S16x2000x3 : Shape := ⟨3, ![16, 2000, 3]⟩
abbrev S2000 : Shape := ⟨1, ![2000]⟩
abbrev S1x2000 : Shape := ⟨2, ![1, 2000]⟩

abbrev nBuf : Space → Nat
  | .hbm => 149
  | .vmem => 0
  | .smem => 0
  | _ => 0

abbrev hbmTy0_0 (i : Nat) : BufTy := match i % 128 with
  | 0 => ⟨S16x1024x256, .f32⟩
  | 1 => ⟨S16x1024, .f32⟩
  | 2 => ⟨S16x2000x2, .i32⟩
  | 3 => ⟨S16, .i32⟩
  | 4 => ⟨S256x256, .f32⟩
  | 5 => ⟨S256x256, .f32⟩
  | 6 => ⟨S256, .f32⟩
  | 7 => ⟨S16x1024x1, .f32⟩
  | 8 => ⟨S16x1024x256, .f32⟩
  | 9 => ⟨S16x1024x256, .f32⟩
  | 10 => ⟨S16x1024x256, .f32⟩
  | 11 => ⟨S_, .f32⟩
  | 12 => ⟨S16x1024x256, .f32⟩
  | 13 => ⟨S16x1024x256, .f32⟩
  | 14 => ⟨S_, .f32⟩
  | 15 => ⟨S16x1024x256, .f32⟩
  | 16 => ⟨S16x1024x256, .f32⟩
  | 17 => ⟨S16x1024x256, .f32⟩
  | 18 => ⟨S16x1024x256, .f32⟩
  | 19 => ⟨S16x1024x256, .f32⟩
  | 20 => ⟨S16x1024x256, .f32⟩
  | 21 => ⟨S16x1024x256, .f32⟩
  | 22 => ⟨S_, .f32⟩
  | 23 => ⟨S16x1024x256, .f32⟩
  | 24 => ⟨S16x1024x256, .f32⟩
  | 25 => ⟨S_, .f32⟩
  | 26 => ⟨S16x1024x256, .f32⟩
  | 27 => ⟨S16x1024x256, .f32⟩
  | 28 => ⟨S16x1024x256, .f32⟩
  | 29 => ⟨S16x1024x256, .f32⟩
  | 30 => ⟨S1x1x256, .f32⟩
  | 31 => ⟨S16x1024x256, .f32⟩
  | 32 => ⟨S16x1024x256, .f32⟩
  | 33 => ⟨S16x1024x1024, .f32⟩
  | 34 => ⟨S16x1024x1, .f32⟩
  | 35 => ⟨S16x1x1024, .f32⟩
  | 36 => ⟨S16x1024x1024, .f32⟩
  | 37 => ⟨S16x1024x1024, .f32⟩
  | 38 => ⟨S16x1024x1024, .f32⟩
  | 39 => ⟨S16x1024x1024, .f32⟩
  | 40 => ⟨S_, .f32⟩
  | 41 => ⟨S16x1024x1024, .f32⟩
  | 42 => ⟨S16x1024x1024, .f32⟩
  | 43 => ⟨S_, .f32⟩
  | 44 => ⟨S16x1024x1024, .f32⟩
  | 45 => ⟨S16x1024x1024, .f32⟩
  | 46 => ⟨S16x1024x1024, .f32⟩
  | 47 => ⟨S_, .f32⟩
  | 48 => ⟨S_, .f32⟩
  | 49 => ⟨S16x1024x1024, .f32⟩
  | 50 => ⟨S16x1024x1024, .f32⟩
  | 51 => ⟨S_, .f32⟩
  | 52 => ⟨S16x1024, .f32⟩
  | 53 => ⟨S_, .f32⟩
  | 54 => ⟨S16x1024, .f32⟩
  | 55 => ⟨S16x1024, .f32⟩
  | 56 => ⟨S16x1024x1, .f32⟩
  | 57 => ⟨S16x1024x1024, .f32⟩
  | 58 => ⟨S16x1024x1024, .f32⟩
  | 59 => ⟨S16x1024x1024, .f32⟩
  | 60 => ⟨S_, .f32⟩
  | 61 => ⟨S16x1024, .f32⟩
  | 62 => ⟨S16x1024x1, .f32⟩
  | 63 => ⟨S16x1024x1024, .f32⟩
  | 64 => ⟨S16x1024x1024, .f32⟩
  | 65 => ⟨S16x2000x1, .i32⟩
  | 66 => ⟨S16x2000, .i32⟩
  | 67 => ⟨S16x2000x1, .i32⟩
  | 68 => ⟨S16x2000, .i32⟩
  | 69 => ⟨S16, .i32⟩
  | 70 => ⟨S16x1, .i32⟩
  | 71 => ⟨S_, .i32⟩
  | 72 => ⟨S16x1, .i32⟩
  | 73 => ⟨S16x1, .i1⟩
  | 74 => ⟨S_, .i32⟩
  | 75 => ⟨S16x1, .i32⟩
  | 76 => ⟨S16x1, .i32⟩
  | 77 => ⟨S16x1, .i32⟩
  | 78 => ⟨S_, .i32⟩
  | 79 => ⟨S16x2000, .i32⟩
  | 80 => ⟨S16x2000, .i1⟩
  | 81 => ⟨S_, .i32⟩
  | 82 => ⟨S16x2000, .i32⟩
  | 83 => ⟨S16x2000, .i32⟩
  | 84 => ⟨S16x2000, .i32⟩
  | 85 => ⟨S_, .i32⟩
  | 86 => ⟨S16x2000, .i32⟩
  | 87 => ⟨S16x2000, .i1⟩
  | 88 => ⟨S_, .i32⟩
  | 89 => ⟨S16x2000, .i32⟩
  | 90 => ⟨S16x2000, .i32⟩
  | 91 => ⟨S16x2000, .i32⟩
  | 92 => ⟨S16x2000, .i32⟩
  | 93 => ⟨S16x2000x1, .i32⟩
  | 94 => ⟨S16x2000x1, .i32⟩
  | 95 => ⟨S16x2000x1, .i32⟩
  | 96 => ⟨S16x2000x3, .i32⟩
  | 97 => ⟨S16x2000, .f32⟩
  | 98 => ⟨S_, .i32⟩
  | 99 => ⟨S16x1, .i32⟩
  | 100 => ⟨S16x1, .i1⟩
  | 101 => ⟨S_, .i32⟩
  | 102 => ⟨S16x1, .i32⟩
  | 103 => ⟨S16x1, .i32⟩
  | 104 => ⟨S16x1, .i32⟩
  | 105 => ⟨S_, .i32⟩
  | 106 => ⟨S16x2000, .i32⟩
  | 107 => ⟨S16x2000, .i1⟩
  | 108 => ⟨S_, .i32⟩
  | 109 => ⟨S16x2000, .i32⟩
  | 110 => ⟨S16x2000, .i32⟩
  | 111 => ⟨S16x2000, .i32⟩
  | 112 => ⟨S_, .i32⟩
  | 113 => ⟨S16x2000, .i32⟩
  | 114 => ⟨S16x2000, .i1⟩
  | 115 => ⟨S_, .i32⟩
  | 116 => ⟨S16x2000, .i32⟩
  | 117 => ⟨S16x2000, .i32⟩
  | 118 => ⟨S16x2000, .i32⟩
  | 119 => ⟨S16x2000, .i32⟩
  | 120 => ⟨S16x2000x1, .i32⟩
  | 121 => ⟨S16x2000x1, .i32⟩
  | 122 => ⟨S16x2000x1, .i32⟩
  | 123 => ⟨S16x2000x3, .i32⟩
  | 124 => ⟨S16x2000, .f32⟩
  | 125 => ⟨S2000, .i32⟩
  | 126 => ⟨S1x2000, .i32⟩
  | 127 => ⟨S16x1, .i32⟩
  | _ => ⟨S16x1024x256, .f32⟩

abbrev hbmTy0_1 (i : Nat) : BufTy := match i % 128 with
  | 0 => ⟨S16x2000, .i32⟩
  | 1 => ⟨S16x2000, .i32⟩
  | 2 => ⟨S16x2000, .i1⟩
  | 3 => ⟨S16x2000, .f32⟩
  | 4 => ⟨S16x2000, .f32⟩
  | 5 => ⟨S16x2000, .f32⟩
  | 6 => ⟨S16x2000, .f32⟩
  | 7 => ⟨S16x2000, .f32⟩
  | 8 => ⟨S_, .f32⟩
  | 9 => ⟨S16x2000, .f32⟩
  | 10 => ⟨S16x2000, .f32⟩
  | 11 => ⟨S_, .f32⟩
  | 12 => ⟨S16x2000, .f32⟩
  | 13 => ⟨S16x2000, .f32⟩
  | 14 => ⟨S16x2000, .f32⟩
  | 15 => ⟨S16x2000, .f32⟩
  | 16 => ⟨S16x2000, .f32⟩
  | 17 => ⟨S_, .f32⟩
  | 18 => ⟨S_, .f32⟩
  | 19 => ⟨S16x1024x256, .f32⟩
  | 20 => ⟨S16x1024x256, .f32⟩
  | _ => ⟨S16x1024x256, .f32⟩

abbrev hbmTy (i : Nat) : BufTy := match i / 128 with
  | 0 => hbmTy0_0 i
  | 1 => hbmTy0_1 i
  | _ => ⟨S16x1024x256, .f32⟩

abbrev bufTy : (tb : Table) → Fin (tcTables nBuf tb) → BufTy
  | .hbm, ⟨i, _⟩ => hbmTy i
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_v78 : Ref sig .tc := ⟨.hbm, 106, rfl⟩
abbrev main_v79 : Ref sig .tc := ⟨.hbm, 107, rfl⟩
abbrev main_c_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_18 : Ref sig .tc := ⟨.hbm, 112, rfl⟩
abbrev main_v83 : Ref sig .tc := ⟨.hbm, 113, rfl⟩
abbrev main_v84 : Ref sig .tc := ⟨.hbm, 114, rfl⟩
abbrev main_c_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_20 : Ref sig .tc := ⟨.hbm, 136, rfl⟩
abbrev main_v105 : Ref sig .tc := ⟨.hbm, 137, rfl⟩
abbrev main_v106 : Ref sig .tc := ⟨.hbm, 138, rfl⟩
abbrev main_cst_21 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_22 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩

abbrev nD : Nat := 1
abbrev τ : Topo := Topo.v7x

variable {F : FTy → Type} [FloatOps F]

class Facts₀ : Prop where
  bcast_S16x1024_S16x1024x1_0_1 : S16x1024.BroadcastsInDim S16x1024x1 (![0, 1] : Fin 2 → Fin S16x1024x1.rank)
  bcast_S_S16x1024x256 : S_.BroadcastsInDim S16x1024x256 (![] : Fin 0 → Fin S16x1024x256.rank)
  bcast_S16x1024x1_S16x1024x256_0_1_2 : S16x1024x1.BroadcastsInDim S16x1024x256 (![0, 1, 2] : Fin 3 → Fin S16x1024x256.rank)
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  slices_S16x2000x2_S16x2000x1_0_0_0 : S16x2000x2.Slices ![0, 0, 0] S16x2000x1
  shapeCasts_S16x2000x1_S16x2000 : S16x2000x1.ShapeCasts S16x2000
  slices_S16x2000x2_S16x2000x1_0_0_1 : S16x2000x2.Slices ![0, 0, 1] S16x2000x1
  bcast_S16_S16x1_0 : S16.BroadcastsInDim S16x1 (![0] : Fin 1 → Fin S16x1.rank)
  bcast_S_S16x1 : S_.BroadcastsInDim S16x1 (![] : Fin 0 → Fin S16x1.rank)
  bcast_S_S16x2000 : S_.BroadcastsInDim S16x2000 (![] : Fin 0 → Fin S16x2000.rank)
  bcast_S16x1_S16x2000_0_1 : S16x1.BroadcastsInDim S16x2000 (![0, 1] : Fin 2 → Fin S16x2000.rank)
  bcast_S16x2000_S16x2000x1_0_1 : S16x2000.BroadcastsInDim S16x2000x1 (![0, 1] : Fin 2 → Fin S16x2000x1.rank)
  concatenates_S16x2000x1_S16x2000x1_S16x2000x1_S16x2000x3_d2 : Shape.Concatenates [S16x2000x1, S16x2000x1, S16x2000x1] S16x2000x3 2
  bcast_S2000_S1x2000_1 : S2000.BroadcastsInDim S1x2000 (![1] : Fin 1 → Fin S1x2000.rank)
  bcast_S1x2000_S16x2000_0_1 : S1x2000.BroadcastsInDim S16x2000 (![0, 1] : Fin 2 → Fin S16x2000.rank)
  reducesTo_S16x2000_S_d0_1 : S16x2000.ReducesTo [0, 1] S_
  dot_S16x1024x256_S256x256_S16x1024x256_2_1_01_0_n_n_wf : DotDims.WF S16x1024x256 S256x256 S16x1024x256 [2] [1] [0, 1] [0] [] []
  dot_S16x1024x256_S16x1024x256_S16x1024x1024_2_2_1_1_0_0_wf : DotDims.WF S16x1024x256 S16x1024x256 S16x1024x1024 [2] [2] [1] [1] [0] [0]
  gather_S16x1024x1024_S16x2000x3_S16x2000_n_012_n_n_012_2_111_wf : GatherDims.WF S16x1024x1024 S16x2000x3 S16x2000 [] [0, 1, 2] [] [0, 1, 2] [] 2 ![1, 1, 1]
  dot_S16x1024x1024_S16x1024x256_S16x1024x256_1_1_2_2_0_0_wf : DotDims.WF S16x1024x1024 S16x1024x256 S16x1024x256 [1] [1] [2] [2] [0] [0]

variable [Facts₀]

def dot_S16x1024x256_S256x256_S16x1024x256_2_1_01_0_n_n : DotDims S16x1024x256 S256x256 S16x1024x256 where
  lhsContracting := [2]
  rhsContracting := [1]
  lhsNonContracting := [0, 1]
  rhsNonContracting := [0]
  lhsBatch := []
  rhsBatch := []
  wf := dot_S16x1024x256_S256x256_S16x1024x256_2_1_01_0_n_n_wf
def dot_S16x1024x256_S16x1024x256_S16x1024x1024_2_2_1_1_0_0 : DotDims S16x1024x256 S16x1024x256 S16x1024x1024 where
  lhsContracting := [2]
  rhsContracting := [2]
  lhsNonContracting := [1]
  rhsNonContracting := [1]
  lhsBatch := [0]
  rhsBatch := [0]
  wf := dot_S16x1024x256_S16x1024x256_S16x1024x1024_2_2_1_1_0_0_wf
def gather_S16x1024x1024_S16x2000x3_S16x2000_n_012_n_n_012_2_111 : GatherDims S16x1024x1024 S16x2000x3 S16x2000 where
  offsetDims := []
  collapsedSliceDims := [0, 1, 2]
  operandBatchingDims := []
  startIndicesBatchingDims := []
  startIndexMap := [0, 1, 2]
  indexVectorDim := 2
  sliceSizes := ![1, 1, 1]
  wf := gather_S16x1024x1024_S16x2000x3_S16x2000_n_012_n_n_012_2_111_wf
def dot_S16x1024x1024_S16x1024x256_S16x1024x256_1_1_2_2_0_0 : DotDims S16x1024x1024 S16x1024x256 S16x1024x256 where
  lhsContracting := [1]
  rhsContracting := [1]
  lhsNonContracting := [2]
  rhsNonContracting := [2]
  lhsBatch := [0]
  rhsBatch := [0]
  wf := dot_S16x1024x1024_S16x1024x256_S16x1024x256_1_1_2_2_0_0_wf

class Facts : Prop extends Facts₀ where

variable [Facts]
-- ==== Proof.Kernel.Around.lean ====
/-
  The program around its one grid region: the single host line before it (the mask laid out as
  [16, 1, 1024]), the region, and the 82 host lines after it taken as two stretches. What each
  argument array holds when the region is entered and after the later lines; each window's block at
  a grid point; when the two conditionals of the body are taken (the first at the first of a batch's
  two row tiles, the second at the last); where the context output is idle.
-/
import proofs.«420420_j29523605193267_3_alg».proof.Proof.Gen.Kernel.Launch
import proofs.«420420_j29523605193267_3_alg».proof.Proof.Gen.Kernel.Skeleton
import proofs.«420420_j29523605193267_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 4000000

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the launch contents after the one host line before it. -/
abbrev V0 (c : Dev nD) : Valuation τ sig (Elt F) := StableHlo.after (List.flatten [main_part0_ops0]) (fun b => m (c, b))
/-- The same read at a reference. -/
abbrev V (c : Dev nD) (b : Ref sig .tc) : Buf (Elt F) ((c : Thread nD τ).loc b) := V0 m c (Proc.devRef .tc b)

theorem ops0_fresh : (main_part0_ops0 : List (HloOp τ sig (Elt F))).Forall fun op => op.fresh = ∅ := by
  simp only [List.Forall]; repeat' constructor
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor

/-- The program reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq main_part0_ops1, StableHlo.seq main_part1_ops0]) :=
  Pipeline.hmain_around cfgs 0 defs₀ 𝒱₀ m main [main_part0_ops0] [main_part0_ops1, main_part1_ops0] (by simp only [List.Forall]; exact main_part0_ops0_sub)
    (by simp only [List.Forall]; exact ops0_fresh) main_chain_windows

/-- The later lines touch the region's arrays and the buffers that bypass it only. -/
theorem sfx_sub : ∀ ops ∈ ([main_part0_ops1, main_part1_ops0] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp main_part0_ops1_sub) op hop)
  · exact Pipeline.sub_ucRefs op ((List.forall_iff_forall_mem.mp main_part1_ops0_sub) op hop)
/-- They allocate nothing. -/
theorem sfx_fresh : ∀ ops ∈ ([main_part0_ops1, main_part1_ops0] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp ops1_fresh) op hop
  · exact (List.forall_iff_forall_mem.mp ops2_fresh) op hop

theorem keeps1 : (main_part0_ops1 : List (HloOp τ sig (Elt F))).Forall fun op => ∀ w : Fin 7, Proc.devRef (τ := τ) .tc (Pipeline.arrRef spec0 w) ∉ op.writes := by
  simp only [main_part0_ops1, List.Forall, StableHlo.nullary_writes, StableHlo.unary_writes, StableHlo.binary_writes, StableHlo.ternary_writes, StableHlo.reshape_writes, StableHlo.nary_writes, Finset.mem_singleton]
  repeat' apply And.intro
  all_goals (intro w; fin_cases w <;> exact StableHlo.devRef_ne_of_ne (by decide))
theorem keeps2 : (main_part1_ops0 : List (HloOp τ sig (Elt F))).Forall fun op => ∀ w : Fin 7, Proc.devRef (τ := τ) .tc (Pipeline.arrRef spec0 w) ∉ op.writes := by
  simp only [main_part1_ops0, List.Forall, StableHlo.nullary_writes, StableHlo.unary_writes, StableHlo.binary_writes, StableHlo.ternary_writes, StableHlo.reshape_writes, StableHlo.nary_writes, Finset.mem_singleton]
  repeat' apply And.intro
  all_goals (intro w; fin_cases w <;> exact StableHlo.devRef_ne_of_ne (by decide))
/-- And write no array of the region (each writes only its own result buffer). -/
theorem sfx_keeps : ∀ ops ∈ ([main_part0_ops1, main_part1_ops0] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · exact (List.forall_iff_forall_mem.mp keeps1) op hop
  · exact (List.forall_iff_forall_mem.mp keeps2) op hop

/-- The host line before the region does not write `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No later line writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [main_part0_ops1, main_part1_ops0] c main_arg1 = m ((c : Thread nD τ).loc main_arg1) := by
  unfold Pipeline.afterTail₀
  rw [StableHlo.after_of_forall_not_mem (b := Proc.devRef .tc main_arg1) _ _ (List.forall_iff_forall_mem.mp (by
    simp only [main_part0_ops1, main_part1_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c
/-- No later line writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [main_part0_ops1, main_part1_ops0] c main_arg2 = m ((c : Thread nD τ).loc main_arg2) := by
  unfold Pipeline.afterTail₀
  rw [StableHlo.after_of_forall_not_mem (b := Proc.devRef .tc main_arg2) _ _ (List.forall_iff_forall_mem.mp (by
    simp only [main_part0_ops1, main_part1_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c
/-- No later line writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [main_part0_ops1, main_part1_ops0] c main_arg3 = m ((c : Thread nD τ).loc main_arg3) := by
  unfold Pipeline.afterTail₀
  rw [StableHlo.after_of_forall_not_mem (b := Proc.devRef .tc main_arg3) _ _ (List.forall_iff_forall_mem.mp (by
    simp only [main_part0_ops1, main_part1_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run to the region's final-state description, read at the seven argument arrays: a staged input is
    its array as the region found it, an array the region does not stage is what the later lines leave. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [main_part0_ops1, main_part1_ops0]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 2).trans (((dats 0 c).arrAt_in 2 rfl _).trans ((hA c 2).trans (V_main_arg4 m c))),
    ((h c).1 3).trans (((dats 0 c).arrAt_in 3 rfl _).trans ((hA c 3).trans (V_main_arg5 m c))),
    ((h c).1 4).trans (((dats 0 c).arrAt_in 4 rfl _).trans ((hA c 4).trans (V_main_arg6 m c)))⟩) h

/-! ## The body's two conditionals -/

/-- The first conditional's test, from the grid coordinates: the row-tile coordinate is zero. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- The second conditional's test: the row-tile coordinate is one. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- At the first tile of a batch the context output is idle: nothing is stored into it, and it is not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- At the last tile it is live. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of each output window, through which its contents are stated. -/
abbrev VO0_5 : View sig .tc .vmem S1x512x1024 .f32 := (Memref.whole cc0_stg5_0 : Memref sig .tc .vmem S1x512x1024 .f32).view
abbrev VO0_6 : View sig .tc .vmem S1x1024x256 .f32 := (Memref.whole cc0_stg6_0 : Memref sig .tc .vmem S1x1024x256 .f32).view
abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .f32 := win0_6.stage (cfg0.slots t 6)
abbrev hs0_6 (t : Fin cfg0.N) : (ms0_6 t).IsWhole := hstage0_6 ((cfg0.slots t 6).cast nbuf0_6)
/-- The two scratch operands: the second gating of the batch, and the context accumulator. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The region's invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frm

end
-- ==== Proof.Kernel.RunFirst.lean ====
/-
  The body at the first row tile of a batch, run whole: it computes the batch's second gating into
  the first scratch, clears the accumulator, then the tile's probabilities go to the scores block and
  the tile's share of the context sum into the accumulator; the context output is not touched.
-/
import proofs.«420420_j29523605193267_3_alg».proof.Proof.Kernel.Around

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the scores block and in the two scratch buffers, as pieces (last first), at a
    point where the first conditional is taken and the second is not, with the proof that from the inputs' buffers
    at their blocks, the scores buffer and both scratch buffers at anything and the context buffer at contents handed
    back untouched, the body runs to the continuation. -/
noncomputable def kernelRun0_A (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) :
    Σ' (L5 : List (View.Piece (Elt F) S1x512x1024 .f32)) (LS0 : List (View.Piece (Elt F) S1024x256 .f32)), { LS1 : List (View.Piece (Elt F) S1024x256 .f32) //
      ∀ (xi6 : Vec F S1x1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun xi6 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]; · iexists _; iexact HS0
    iexists _; iexact HS1

end Cert.Kernel.Frm

end
-- ==== Proof.Kernel.RunLast.lean ====
/-
  The body at the last row tile of a batch, run whole: the second gating is read back from the first
  scratch, the tile's probabilities go to the scores block, the tile's share of the context sum is
  added to the accumulator, and the context block is the second gating times the accumulator.
-/
import proofs.«420420_j29523605193267_3_alg».proof.Proof.Kernel.Around

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the two output blocks and in the accumulator, as pieces (last first), at a point
    where the first conditional is not taken and the second is, with the proof that from the inputs' buffers at their
    blocks, both output buffers at anything and the two scratch buffers at what the point before left, the body runs
    to the continuation; the first scratch is handed back as it was. -/
noncomputable def kernelRun0_C (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) :
    Σ' (L5 : List (View.Piece (Elt F) S1x512x1024 .f32)) (L6 : List (View.Piece (Elt F) S1x1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _; isplitr; · ipureintro; exact harg9.read_unread _
      iexact HS0
    iexists _; iexact HS1

end Cert.Kernel.Frm

end
-- ==== Proof.Kernel.Frame.lean ====
/-
  The frame of the program: what the two output blocks and the two scratch buffers hold after the body
  at each grid point (the first tile of a batch starts them, the last tile reads what the first left),
  the data the launch theorem asks for, the body's obligation at every point, and the run: every fair
  execution ends, faults nowhere, leaves each window's array at what the points' blocks make of it and
  every other buffer as the later host lines leave it.
-/
import proofs.«420420_j29523605193267_3_alg».proof.Proof.Kernel.RunFirst
import proofs.«420420_j29523605193267_3_alg».proof.Proof.Kernel.RunLast

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first tile the pieces stored into the scores block tile it. -/
theorem cover0_A_5 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) (y : S1x512x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1x512x1024.size (by sl_kernel_rfl) y

/-- What a first tile leaves in the scores block. -/
def out0_A_5 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) : Vec F S1x512x1024 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- A first tile stores nothing into the context block (idle there, not written back): a placeholder nothing consults. -/
def out0_A_6 : Vec F S1x1024x256 .f32 := VO0_6.read (Elt F) (VO0_6.writes (Elt F) VO0_6.junk [])
/-- At a first tile the pieces stored into the first scratch tile it. -/
theorem scover0_A_0 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) (y : S1024x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1024x256.size (by sl_kernel_rfl) y

/-- What a first tile leaves in the first scratch: the batch's second gating. -/
def sout0_A_0 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) : Vec F S1024x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.1)

/-- At a first tile the pieces stored into the accumulator tile it. -/
theorem scover0_A_1 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) (y : S1024x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S1024x256.size (by sl_kernel_rfl) y

/-- What a first tile leaves in the accumulator. -/
def sout0_A_1 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) : Vec F S1024x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.1)

/-- At a last tile the pieces stored into the scores block tile it. -/
theorem cover0_C_5 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) (y : S1x512x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).1 S1x512x1024.size (by sl_kernel_rfl) y

/-- What a last tile leaves in the scores block. -/
def out0_C_5 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) : Vec F S1x512x1024 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0 xs1).1)

/-- At a last tile the pieces stored into the context block tile it. -/
theorem cover0_C_6 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) (y : S1x1024x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.1 S1x1024x256.size (by sl_kernel_rfl) y

/-- What a last tile leaves in the context block. -/
def out0_C_6 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) : Vec F S1x1024x256 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs0 xs1).2.1)

/-- At a last tile the pieces stored into the accumulator tile it. -/
theorem scover0_C_1 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) (y : S1024x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.2.1 S1024x256.size (by sl_kernel_rfl) y

/-- What a last tile leaves in the accumulator. -/
def sout0_C_1 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) : Vec F S1024x256 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs0 xs1).2.2.1)

/-! ## What the buffers hold after each point -/

/-- After the body at position `n`: the scores block, the context block, the first scratch, the accumulator. An even
    position is a first tile; an odd one a last tile, run over the two scratch buffers as the position before left them
    (it leaves the first scratch as it found it). -/
def outsAt0 (c : Dev nD) : (n : ℕ) → n < cfg0.N → Vec F S1x512x1024 .f32 × Vec F S1x1024x256 .f32 × Vec F S1024x256 .f32 × Vec F S1024x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (n + 1) % 2 = 1 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 2 = 1 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, (outsAt0 c n (Nat.lt_of_succ_lt hn)).2.2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        False.elim (by omega)

/-- `outsAt0` at a first tile. -/
theorem outsAt0_A (c : Dev nD) (t : Fin cfg0.N) (h0 : t.val % 2 = 0) (h1 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a last tile: over what the position before left in the two scratch buffers. -/
theorem outsAt0_C (c : Dev nD) (t : Fin cfg0.N) (h0 : ¬t.val % 2 = 0) (h1 : t.val % 2 = 1) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both scratch buffers hold anything; afterwards
    each holds what the position before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The launch's proof data -/

/-- The arrays as the region finds them; after the body at point `t` each input's buffer at its block and the two
    outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point: the inputs' buffers hold their blocks; the point's parity says which case it is in; the invariant
    hands the body the two scratch buffers (at anything before a first tile, at what the first tile left before a last tile)
    and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  by_cases h0 : t.val % 2 = 0
  · have h1 : ¬t.val % 2 = 1 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
    rw [outsAt0_A m c t h0 h1]
    unfold out0_A_5 sout0_A_0 sout0_A_1; (try dsimp only)
    by_cases hz : t.val = 0
    ·
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      iexists _; iexact H6
    ·
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      isplitl [HS1]; · iexists _; iexact HS1
      iintro ⟨H0, H1, H2, H3, H4, ⟨%e5, H5⟩, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      iexists _; iexact H6
  · have h1 : t.val % 2 = 1 := by omega
    have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
    rw [outsAt0_C m c t h0 h1]
    unfold out0_C_5 out0_C_6 sout0_C_1; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, HS0, ⟨%es1, HS1⟩⟩
    isplitl [HS0 HS1 Hg]
    · isplitl [HS0 HS1]
      · isplitl [HS0]
        · iexact HS0
        unfold owns; iexists _; isplitr
        swap; · iexact HS1
        ipureintro; exact View.read_writes_of_cover _ _ _ _ _ (scover0_C_1 c _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _)
    unfold owns; iexists _; isplitr
    swap; · iexact H6
    ipureintro; exact View.read_writes_of_cover _ _ _ _ _ (cover0_C_6 c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option maxHeartbeats 16000000 in
set_option backward.isDefEq.respectTransparency.types false in
/-- Every weakly fair execution of the program terminates, and every final state has each window's array at what the
    launch's proof data make of it and every other unscoped buffer as the later host lines leave it. -/
theorem run_main : θ_run defs (onTc (τ := τ) (main (F := F))) (s₀ m ρ) (Pipeline.FramePost cfgs (dats m) 0 (Pipeline.afterTail₀ cfgs (dats m) 0 (V0 m) [main_part0_ops1, main_part1_ops0])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [main_part0_ops1, main_part1_ops0]) (hsub := sfx_sub) (hfresh := sfx_fresh) (hkeep := sfx_keeps)
    (hmain := hmain m Variants.none) (hA := A_eq m) (hin := hin m) (hout := hout m)

/-- The program runs to the end, faults nowhere, and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frm

end
-- ==== Proof.KernelIdeal.Around.lean ====
/-
  The program around its one grid region: the single host line before it (the mask laid out as
  [16, 1, 1024]), the region, and the 82 host lines after it taken as two stretches. What each
  argument array holds when the region is entered and after the later lines; each window's block at
  a grid point; when the two conditionals of the body are taken (the first at the first of a batch's
  two row tiles, the second at the last); where the context output is idle.
-/
import proofs.«420420_j29523605193267_3_alg».proof.Proof.Gen.KernelIdeal.Launch
import proofs.«420420_j29523605193267_3_alg».proof.Proof.Gen.KernelIdeal.Skeleton
import proofs.«420420_j29523605193267_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 4000000

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the launch contents after the one host line before it. -/
abbrev V0 (c : Dev nD) : Valuation τ sig (Elt F) := StableHlo.after (List.flatten [main_part0_ops0]) (fun b => m (c, b))
/-- The same read at a reference. -/
abbrev V (c : Dev nD) (b : Ref sig .tc) : Buf (Elt F) ((c : Thread nD τ).loc b) := V0 m c (Proc.devRef .tc b)

theorem ops0_fresh : (main_part0_ops0 : List (HloOp τ sig (Elt F))).Forall fun op => op.fresh = ∅ := by
  simp only [List.Forall]; repeat' constructor
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor

/-- The program reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq main_part0_ops1, StableHlo.seq main_part1_ops0]) :=
  Pipeline.hmain_around cfgs 0 defs₀ 𝒱₀ m main [main_part0_ops0] [main_part0_ops1, main_part1_ops0] (by simp only [List.Forall]; exact main_part0_ops0_sub)
    (by simp only [List.Forall]; exact ops0_fresh) main_chain_windows

/-- The later lines touch the region's arrays and the buffers that bypass it only. -/
theorem sfx_sub : ∀ ops ∈ ([main_part0_ops1, main_part1_ops0] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp main_part0_ops1_sub) op hop)
  · exact Pipeline.sub_ucRefs op ((List.forall_iff_forall_mem.mp main_part1_ops0_sub) op hop)
/-- They allocate nothing. -/
theorem sfx_fresh : ∀ ops ∈ ([main_part0_ops1, main_part1_ops0] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp ops1_fresh) op hop
  · exact (List.forall_iff_forall_mem.mp ops2_fresh) op hop

theorem keeps1 : (main_part0_ops1 : List (HloOp τ sig (Elt F))).Forall fun op => ∀ w : Fin 7, Proc.devRef (τ := τ) .tc (Pipeline.arrRef spec0 w) ∉ op.writes := by
  simp only [main_part0_ops1, List.Forall, StableHlo.nullary_writes, StableHlo.unary_writes, StableHlo.binary_writes, StableHlo.ternary_writes, StableHlo.reshape_writes, StableHlo.nary_writes, Finset.mem_singleton]
  repeat' apply And.intro
  all_goals (intro w; fin_cases w <;> exact StableHlo.devRef_ne_of_ne (by decide))
theorem keeps2 : (main_part1_ops0 : List (HloOp τ sig (Elt F))).Forall fun op => ∀ w : Fin 7, Proc.devRef (τ := τ) .tc (Pipeline.arrRef spec0 w) ∉ op.writes := by
  simp only [main_part1_ops0, List.Forall, StableHlo.nullary_writes, StableHlo.unary_writes, StableHlo.binary_writes, StableHlo.ternary_writes, StableHlo.reshape_writes, StableHlo.nary_writes, Finset.mem_singleton]
  repeat' apply And.intro
  all_goals (intro w; fin_cases w <;> exact StableHlo.devRef_ne_of_ne (by decide))
/-- And write no array of the region (each writes only its own result buffer). -/
theorem sfx_keeps : ∀ ops ∈ ([main_part0_ops1, main_part1_ops0] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · exact (List.forall_iff_forall_mem.mp keeps1) op hop
  · exact (List.forall_iff_forall_mem.mp keeps2) op hop

/-- The host line before the region does not write `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- The host line before the region does not write `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No later line writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [main_part0_ops1, main_part1_ops0] c main_arg1 = m ((c : Thread nD τ).loc main_arg1) := by
  unfold Pipeline.afterTail₀
  rw [StableHlo.after_of_forall_not_mem (b := Proc.devRef .tc main_arg1) _ _ (List.forall_iff_forall_mem.mp (by
    simp only [main_part0_ops1, main_part1_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c
/-- No later line writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [main_part0_ops1, main_part1_ops0] c main_arg2 = m ((c : Thread nD τ).loc main_arg2) := by
  unfold Pipeline.afterTail₀
  rw [StableHlo.after_of_forall_not_mem (b := Proc.devRef .tc main_arg2) _ _ (List.forall_iff_forall_mem.mp (by
    simp only [main_part0_ops1, main_part1_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c
/-- No later line writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [main_part0_ops1, main_part1_ops0] c main_arg3 = m ((c : Thread nD τ).loc main_arg3) := by
  unfold Pipeline.afterTail₀
  rw [StableHlo.after_of_forall_not_mem (b := Proc.devRef .tc main_arg3) _ _ (List.forall_iff_forall_mem.mp (by
    simp only [main_part0_ops1, main_part1_ops0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run to the region's final-state description, read at the seven argument arrays: a staged input is
    its array as the region found it, an array the region does not stage is what the later lines leave. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [main_part0_ops1, main_part1_ops0]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 2).trans (((dats 0 c).arrAt_in 2 rfl _).trans ((hA c 2).trans (V_main_arg4 m c))),
    ((h c).1 3).trans (((dats 0 c).arrAt_in 3 rfl _).trans ((hA c 3).trans (V_main_arg5 m c))),
    ((h c).1 4).trans (((dats 0 c).arrAt_in 4 rfl _).trans ((hA c 4).trans (V_main_arg6 m c)))⟩) h

/-! ## The body's two conditionals -/

/-- The first conditional's test, from the grid coordinates: the row-tile coordinate is zero. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- The second conditional's test: the row-tile coordinate is one. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- At the first tile of a batch the context output is idle: nothing is stored into it, and it is not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- At the last tile it is live. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of each output window, through which its contents are stated. -/
abbrev VO0_5 : View sig .tc .vmem S1x512x1024 .f32 := (Memref.whole cc0_stg5_0 : Memref sig .tc .vmem S1x512x1024 .f32).view
abbrev VO0_6 : View sig .tc .vmem S1x1024x256 .f32 := (Memref.whole cc0_stg6_0 : Memref sig .tc .vmem S1x1024x256 .f32).view
abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .f32 := win0_6.stage (cfg0.slots t 6)
abbrev hs0_6 (t : Fin cfg0.N) : (ms0_6 t).IsWhole := hstage0_6 ((cfg0.slots t 6).cast nbuf0_6)
/-- The two scratch operands: the second gating of the batch, and the context accumulator. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The region's invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Frm

end
-- ==== Proof.KernelIdeal.RunFirst.lean ====
/-
  The body at the first row tile of a batch, run whole: it computes the batch's second gating into
  the first scratch, clears the accumulator, then the tile's probabilities go to the scores block and
  the tile's share of the context sum into the accumulator; the context output is not touched.
-/
import proofs.«420420_j29523605193267_3_alg».proof.Proof.KernelIdeal.Around

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the scores block and in the two scratch buffers, as pieces (last first), at a
    point where the first conditional is taken and the second is not, with the proof that from the inputs' buffers
    at their blocks, the scores buffer and both scratch buffers at anything and the context buffer at contents handed
    back untouched, the body runs to the continuation. -/
noncomputable def kernelRun0_A (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) :
    Σ' (L5 : List (View.Piece (Elt F) S1x512x1024 .f32)) (LS0 : List (View.Piece (Elt F) S1024x256 .f32)), { LS1 : List (View.Piece (Elt F) S1024x256 .f32) //
      ∀ (xi6 : Vec F S1x1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun xi6 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]; · iexists _; iexact HS0
    iexists _; iexact HS1

end Cert.KernelIdeal.Frm

end
-- ==== Proof.KernelIdeal.RunLast.lean ====
/-
  The body at the last row tile of a batch, run whole: the second gating is read back from the first
  scratch, the tile's probabilities go to the scores block, the tile's share of the context sum is
  added to the accumulator, and the context block is the second gating times the accumulator.
-/
import proofs.«420420_j29523605193267_3_alg».proof.Proof.KernelIdeal.Around

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the two output blocks and in the accumulator, as pieces (last first), at a point
    where the first conditional is not taken and the second is, with the proof that from the inputs' buffers at their
    blocks, both output buffers at anything and the two scratch buffers at what the point before left, the body runs
    to the continuation; the first scratch is handed back as it was. -/
noncomputable def kernelRun0_C (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) :
    Σ' (L5 : List (View.Piece (Elt F) S1x512x1024 .f32)) (L6 : List (View.Piece (Elt F) S1x1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _; isplitr; · ipureintro; exact harg9.read_unread _
      iexact HS0
    iexists _; iexact HS1

end Cert.KernelIdeal.Frm

end
-- ==== Proof.KernelIdeal.Frame.lean ====
/-
  The frame of the program: what the two output blocks and the two scratch buffers hold after the body
  at each grid point (the first tile of a batch starts them, the last tile reads what the first left),
  the data the launch theorem asks for, the body's obligation at every point, and the run: every fair
  execution ends, faults nowhere, leaves each window's array at what the points' blocks make of it and
  every other buffer as the later host lines leave it.
-/
import proofs.«420420_j29523605193267_3_alg».proof.Proof.KernelIdeal.RunFirst
import proofs.«420420_j29523605193267_3_alg».proof.Proof.KernelIdeal.RunLast

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first tile the pieces stored into the scores block tile it. -/
theorem cover0_A_5 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) (y : S1x512x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1x512x1024.size (by sl_kernel_rfl) y

/-- What a first tile leaves in the scores block. -/
def out0_A_5 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) : Vec F S1x512x1024 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- A first tile stores nothing into the context block (idle there, not written back): a placeholder nothing consults. -/
def out0_A_6 : Vec F S1x1024x256 .f32 := VO0_6.read (Elt F) (VO0_6.writes (Elt F) VO0_6.junk [])
/-- At a first tile the pieces stored into the first scratch tile it. -/
theorem scover0_A_0 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) (y : S1024x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1024x256.size (by sl_kernel_rfl) y

/-- What a first tile leaves in the first scratch: the batch's second gating. -/
def sout0_A_0 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) : Vec F S1024x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.1)

/-- At a first tile the pieces stored into the accumulator tile it. -/
theorem scover0_A_1 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) (y : S1024x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S1024x256.size (by sl_kernel_rfl) y

/-- What a first tile leaves in the accumulator. -/
def sout0_A_1 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) : Vec F S1024x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.1)

/-- At a last tile the pieces stored into the scores block tile it. -/
theorem cover0_C_5 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) (y : S1x512x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).1 S1x512x1024.size (by sl_kernel_rfl) y

/-- What a last tile leaves in the scores block. -/
def out0_C_5 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) : Vec F S1x512x1024 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0 xs1).1)

/-- At a last tile the pieces stored into the context block tile it. -/
theorem cover0_C_6 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) (y : S1x1024x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.1 S1x1024x256.size (by sl_kernel_rfl) y

/-- What a last tile leaves in the context block. -/
def out0_C_6 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) : Vec F S1x1024x256 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs0 xs1).2.1)

/-- At a last tile the pieces stored into the accumulator tile it. -/
theorem scover0_C_1 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) (y : S1024x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.2.1 S1024x256.size (by sl_kernel_rfl) y

/-- What a last tile leaves in the accumulator. -/
def sout0_C_1 (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) : Vec F S1024x256 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs0 xs1).2.2.1)

/-! ## What the buffers hold after each point -/

/-- After the body at position `n`: the scores block, the context block, the first scratch, the accumulator. An even
    position is a first tile; an odd one a last tile, run over the two scratch buffers as the position before left them
    (it leaves the first scratch as it found it). -/
def outsAt0 (c : Dev nD) : (n : ℕ) → n < cfg0.N → Vec F S1x512x1024 .f32 × Vec F S1x1024x256 .f32 × Vec F S1024x256 .f32 × Vec F S1024x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (n + 1) % 2 = 1 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 2 = 1 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, (outsAt0 c n (Nat.lt_of_succ_lt hn)).2.2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        False.elim (by omega)

/-- `outsAt0` at a first tile. -/
theorem outsAt0_A (c : Dev nD) (t : Fin cfg0.N) (h0 : t.val % 2 = 0) (h1 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a last tile: over what the position before left in the two scratch buffers. -/
theorem outsAt0_C (c : Dev nD) (t : Fin cfg0.N) (h0 : ¬t.val % 2 = 0) (h1 : t.val % 2 = 1) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both scratch buffers hold anything; afterwards
    each holds what the position before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The launch's proof data -/

/-- The arrays as the region finds them; after the body at point `t` each input's buffer at its block and the two
    outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point: the inputs' buffers hold their blocks; the point's parity says which case it is in; the invariant
    hands the body the two scratch buffers (at anything before a first tile, at what the first tile left before a last tile)
    and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  by_cases h0 : t.val % 2 = 0
  · have h1 : ¬t.val % 2 = 1 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
    rw [outsAt0_A m c t h0 h1]
    unfold out0_A_5 sout0_A_0 sout0_A_1; (try dsimp only)
    by_cases hz : t.val = 0
    ·
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      iexists _; iexact H6
    ·
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      isplitl [HS1]; · iexists _; iexact HS1
      iintro ⟨H0, H1, H2, H3, H4, ⟨%e5, H5⟩, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      iexists _; iexact H6
  · have h1 : t.val % 2 = 1 := by omega
    have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
    rw [outsAt0_C m c t h0 h1]
    unfold out0_C_5 out0_C_6 sout0_C_1; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, HS0, ⟨%es1, HS1⟩⟩
    isplitl [HS0 HS1 Hg]
    · isplitl [HS0 HS1]
      · isplitl [HS0]
        · iexact HS0
        unfold owns; iexists _; isplitr
        swap; · iexact HS1
        ipureintro; exact View.read_writes_of_cover _ _ _ _ _ (scover0_C_1 c _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _)
    unfold owns; iexists _; isplitr
    swap; · iexact H6
    ipureintro; exact View.read_writes_of_cover _ _ _ _ _ (cover0_C_6 c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option maxHeartbeats 16000000 in
set_option backward.isDefEq.respectTransparency.types false in
/-- Every weakly fair execution of the program terminates, and every final state has each window's array at what the
    launch's proof data make of it and every other unscoped buffer as the later host lines leave it. -/
theorem run_main : θ_run defs (onTc (τ := τ) (main (F := F))) (s₀ m ρ) (Pipeline.FramePost cfgs (dats m) 0 (Pipeline.afterTail₀ cfgs (dats m) 0 (V0 m) [main_part0_ops1, main_part1_ops0])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [main_part0_ops1, main_part1_ops0]) (hsub := sfx_sub) (hfresh := sfx_fresh) (hkeep := sfx_keeps)
    (hmain := hmain m Variants.none) (hA := A_eq m) (hin := hin m) (hout := hout m)

/-- The program runs to the end, faults nowhere, and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frm

end
-- ==== Proof.KernelIdeal.TileDefs.lean ====
/-
  The row tile a grid point works on, as slices of the batch's blocks: 512 of the 1024 rows, and the
  matching 512 mask entries, starting at 512 times the point's row-tile coordinate.
-/
import proofs.«420420_j29523605193267_3_alg».proof.Proof.Gen.KernelIdeal
import Idealize.ShloMosaic.Lib.Pipeline.FrameBody

noncomputable section

namespace Cert.KernelIdeal.Frm

open Cert.KernelIdeal Cert.KernelIdeal.Gen
open Idealize.ShloMosaic Idealize.ShloMosaic.TcCoe Idealize.SL.Sem

variable {F : FTy → Type} [FloatOps F]

/-- The point's 512 rows of the batch's [1, 1024, 256] block. -/
def tileRows (i : grid0.Coords) (x0 : Vec F S1x1024x256 .f32) : Vec F S1x512x256 .f32 :=
  View.ld x0 (Rect.unit (s := S1x1024x256) (k0_off1 i) S1x512x256.size (k0_off1_inb i))

/-- The point's 512 entries of the batch's [1, 1, 1024] mask block. -/
def tileMask (i : grid0.Coords) (x1 : Vec F S1x1x1024 .f32) : Vec F S1x1x512 .f32 :=
  View.ld x1 (Rect.unit (s := S1x1x1024) (k0_off2 i) S1x1x512.size (k0_off2_inb i))

end Cert.KernelIdeal.Frm

end
-- ==== Proof.KernelIdeal.Pieces.lean ====
/-
  What each case of the body leaves, as the body's arithmetic applied to the blocks it loads: the stores
  cover their buffers whole, the loads read whole buffers or the point's row tile, and a buffer stored
  earlier in the same run reads back what was stored.
-/
import proofs.«420420_j29523605193267_3_alg».proof.Proof.KernelIdeal.Frame
import proofs.«420420_j29523605193267_3_alg».proof.Proof.KernelIdeal.TileDefs
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A first tile leaves in the first scratch the second gating of the whole batch. -/
theorem s2_first (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) :
    sout0_A_0 c i arg2 harg2 arg3 harg3 arg4 harg4 arg5 harg5 arg6 harg6 arg7 harg7 arg8 harg8 arg9 harg9 arg10 harg10 hc0 hc1 x0 x1 x2 x3 x4 = k0_pay5 x0 x3 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread,
    View.readCov_unit_zero (S := S1024x256) _ hz2, View.ld_unit_zero (S := S1x1024x256) hz3, View.ld_unit_zero (S := S256x256) hz2,
    View.ld_unit_zero (S := S1x1x1024) hz3, View.ld_unit_zero (S := S256) hz1, View.ld_unit_zero (S := S1024x256) hz2]
  try rfl

/-- A first tile leaves in the accumulator its share of the context sum over zero. -/
theorem acc_first (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) :
    sout0_A_1 c i arg2 harg2 arg3 harg3 arg4 harg4 arg5 harg5 arg6 harg6 arg7 harg7 arg8 harg8 arg9 harg9 arg10 harg10 hc0 hc1 x0 x1 x2 x3 x4 = k0_pay3 (k0_pay8 (tileRows i x0) x2 (tileMask i x1)) (k0_pay9 (tileRows i x0) x2 (tileMask i x1) x4 (k0_pay5 x0 x3 x1) x1) k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x256) hz2]
  simp only [View.readAt_eq_ld, harg2.read_unread, harg3.read_unread, harg4.read_unread, harg5.read_unread, harg6.read_unread,
    View.readCov_unit_zero (S := S1024x256) _ hz2, View.ld_unit_zero (S := S1x1024x256) hz3, View.ld_unit_zero (S := S256x256) hz2,
    View.ld_unit_zero (S := S1x1x1024) hz3, View.ld_unit_zero (S := S256) hz1, View.ld_unit_zero (S := S1024x256) hz2]
  try rfl

/-- A first tile leaves in the scores block the softmax of its floored logits. -/
theorem sc_first (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1x1024x256 .f32) (x1 : Vec F S1x1x1024 .f32) (x2 : Vec F S256x256 .f32) (x3 : Vec F S256x256 .f32) (x4 : Vec F S256 .f32) :
    out0_A_5 c i arg2 harg2 arg3 harg3 arg4 harg4 arg5 harg5 arg6 harg6 arg7 harg7 arg8 harg8 arg9 harg9 arg10 harg10 hc0 hc1 x0 x1 x2 x3 x4 = k0_pay2 (k0_pay9 (tileRows i x0) x2 (tileMask i x1) x4 (k0_pay5 x0 x3 x1) x1) := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.readCov_unit_zero (S := S1024x256) _ hz2, View.ld_unit_zero (S := S1x1024x256) hz3, View.ld_unit_zero (S := S256x256) hz2,
    View.ld_unit_zero (S := S1x1x1024) hz3, View.ld_unit_zero (S := S256) hz1, View.ld_unit_zero (S := S1024x256) hz2]
  try rfl

/-- A last tile adds its share of the context sum to what the first tile left. -/
theorem acc_last (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) :
    sout0_C_1 c i arg2 harg2 arg3 harg3 arg4 harg4 arg5 harg5 arg6 harg6 arg7 harg7 arg8 harg8 arg9 harg9 arg10 harg10 hc0 hc1 x0 x1 x2 x3 x4 xs0 xs1 = k0_pay3 (k0_pay8 (tileRows i x0) x2 (tileMask i x1)) (k0_pay9 (tileRows i x0) x2 (tileMask i x1) x4 xs0 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg2.read_unread, harg3.read_unread, harg4.read_unread, harg5.read_unread, harg6.read_unread, harg9.read_unread, harg10.read_unread,
    View.readCov_unit_zero (S := S1024x256) _ hz2, View.ld_unit_zero (S := S1x1024x256) hz3, View.ld_unit_zero (S := S256x256) hz2,
    View.ld_unit_zero (S := S1x1x1024) hz3, View.ld_unit_zero (S := S256) hz1, View.ld_unit_zero (S := S1024x256) hz2]
  try rfl

/-- A last tile leaves in the scores block the softmax of its floored logits, over the second gating the first tile left. -/
theorem sc_last (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) :
    out0_C_5 c i arg2 harg2 arg3 harg3 arg4 harg4 arg5 harg5 arg6 harg6 arg7 harg7 arg8 harg8 arg9 harg9 arg10 harg10 hc0 hc1 x0 x1 x2 x3 x4 xs0 xs1 = k0_pay2 (k0_pay9 (tileRows i x0) x2 (tileMask i x1) x4 xs0 x1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg2.read_unread, harg3.read_unread, harg4.read_unread, harg5.read_unread, harg6.read_unread, harg9.read_unread, harg10.read_unread,
    View.readCov_unit_zero (S := S1024x256) _ hz2, View.ld_unit_zero (S := S1x1024x256) hz3, View.ld_unit_zero (S := S256x256) hz2,
    View.ld_unit_zero (S := S1x1x1024) hz3, View.ld_unit_zero (S := S256) hz1, View.ld_unit_zero (S := S1024x256) hz2]
  try rfl

/-- A last tile leaves in the context block the second gating times the full accumulator. -/
theorem ctx_last (c : Dev nD) (i : grid0.Coords) (arg2 : Memref sig .tc .vmem S1x1024x256 .f32) (harg2 : arg2.IsWhole) (arg3 : Memref sig .tc .vmem S1x1x1024 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x1024 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1x1024x256 .f32) (x1 : Vec F S1x1x1024 .f32) (x2 : Vec F S256x256 .f32) (x3 : Vec F S256x256 .f32) (x4 : Vec F S256 .f32) (xs0 : Vec F S1024x256 .f32) (xs1 : Vec F S1024x256 .f32) :
    out0_C_6 c i arg2 harg2 arg3 harg3 arg4 harg4 arg5 harg5 arg6 harg6 arg7 harg7 arg8 harg8 arg9 harg9 arg10 harg10 hc0 hc1 x0 x1 x2 x3 x4 xs0 xs1 = k0_pay4 xs0 (k0_pay3 (k0_pay8 (tileRows i x0) x2 (tileMask i x1)) (k0_pay9 (tileRows i x0) x2 (tileMask i x1) x4 xs0 x1) xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg2.read_unread, harg3.read_unread, harg4.read_unread, harg5.read_unread, harg6.read_unread, harg9.read_unread, harg10.read_unread,
    View.readCov_unit_zero (S := S1024x256) _ hz2, View.ld_unit_zero (S := S1x1024x256) hz3, View.ld_unit_zero (S := S256x256) hz2,
    View.ld_unit_zero (S := S1x1x1024) hz3, View.ld_unit_zero (S := S256) hz1, View.ld_unit_zero (S := S1024x256) hz2]
  try rfl

end Cert.KernelIdeal.Frm

end
-- ==== Proof.KernelIdeal.Blocks.lean ====
/-
  Where each window's block sits. The grid is 16 batches by 2 row tiles; point t is batch t / 2, tile
  t % 2. The rows window and the mask window hold batch t / 2 whole; the three weight windows hold
  their arrays whole; the probabilities window holds rows 512 (t % 2) … 512 (t % 2) + 511 of batch
  t / 2; the context window holds batch t / 2 whole and is written back at the odd points. Every entry
  of the two output arrays lies in the block of a point that writes it back.
-/
import proofs.«420420_j29523605193267_3_alg».proof.Proof.KernelIdeal.Around
import Idealize.ShloMosaic.Lib.Pipeline.Value
import Idealize.ShloMosaic.Lib.ValueIdx

set_option maxRecDepth 16384
set_option maxHeartbeats 4000000

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The printed index maps over the grid -/

theorem idx0 : ∀ t : Fin cfg0.N, win0_0.index t (0 : Fin 3) = t.val / 2 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 2 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 3) = t.val / 2 ∧ win0_5.index t (1 : Fin 3) = t.val % 2 ∧ win0_5.index t (2 : Fin 3) = 0 :=
  (by decide +kernel : ∀ t : Fin grid0.N, _)
theorem idx6 : ∀ t : Fin cfg0.N, win0_6.index t (0 : Fin 3) = t.val / 2 ∧ win0_6.index t (1 : Fin 3) = 0 ∧ win0_6.index t (2 : Fin 3) = 0 :=
  (by decide +kernel : ∀ t : Fin grid0.N, _)

/-! ## The input blocks -/

/-- The batch of a grid point. -/
abbrev batchOf (t : Fin cfg0.N) : Fin 16 := ⟨t.val / 2, by have := t.isLt; have : cfg0.N = 32 := N_0; omega⟩

/-- The rows block at a point. -/
abbrev hblk (c : Dev nD) (t : Fin cfg0.N) : Vec F S1x1024x256 .f32 := iblk m c 0 t
/-- The mask block at a point. -/
abbrev mblk (c : Dev nD) (t : Fin cfg0.N) : Vec F S1x1x1024 .f32 := iblk m c 1 t
/-- The first weight matrix as a point finds it. -/
abbrev w1blk (c : Dev nD) (t : Fin cfg0.N) : Vec F S256x256 .f32 := iblk m c 2 t
/-- The second weight matrix as a point finds it. -/
abbrev w2blk (c : Dev nD) (t : Fin cfg0.N) : Vec F S256x256 .f32 := iblk m c 3 t
/-- The weight vector as a point finds it. -/
abbrev w3blk (c : Dev nD) (t : Fin cfg0.N) : Vec F S256 .f32 := iblk m c 4 t

/-- The rows block of point `t` is batch `t / 2` of the rows array. -/
theorem hblk_apply (c : Dev nD) (t : Fin cfg0.N) (l : Fin 1024) (k : Fin 256) :
    hblk m c t (ix3 0 l k) = m ((c : Thread nD τ).loc main_arg0) (ix3 (batchOf t) l k) := by
  obtain ⟨e0, e1, e2⟩ := idx0 t
  show V m c main_arg0 (((cfg0.win 0).blk t).view.emb (ix3 0 l k)) = _
  rw [V_main_arg0]
  refine congrArg _ (funext fun a => Fin.ext ?_)
  match a with
  | ⟨0, _⟩ => show win0_0.index t (0 : Fin 3) * 1 + 1 * 0 = t.val / 2; omega
  | ⟨1, _⟩ => show win0_0.index t (1 : Fin 3) * 1024 + 1 * l.val = l.val; omega
  | ⟨2, _⟩ => show win0_0.index t (2 : Fin 3) * 256 + 1 * k.val = k.val; omega

/-- The first weight window's block is the whole first weight matrix. -/
theorem w1blk_apply (c : Dev nD) (t : Fin cfg0.N) (e k : Fin 256) :
    w1blk m c t (ix2 e k) = m ((c : Thread nD τ).loc main_arg4) (ix2 e k) := by
  obtain ⟨e0, e1⟩ := idx2 t
  show V m c main_arg4 (((cfg0.win 2).blk t).view.emb (ix2 e k)) = _
  rw [V_main_arg4]
  refine congrArg _ (funext fun a => Fin.ext ?_)
  match a with
  | ⟨0, _⟩ => show win0_2.index t (0 : Fin 2) * 256 + 1 * e.val = e.val; omega
  | ⟨1, _⟩ => show win0_2.index t (1 : Fin 2) * 256 + 1 * k.val = k.val; omega

/-- The second weight window's block is the whole second weight matrix. -/
theorem w2blk_apply (c : Dev nD) (t : Fin cfg0.N) (e k : Fin 256) :
    w2blk m c t (ix2 e k) = m ((c : Thread nD τ).loc main_arg5) (ix2 e k) := by
  obtain ⟨e0, e1⟩ := idx3 t
  show V m c main_arg5 (((cfg0.win 3).blk t).view.emb (ix2 e k)) = _
  rw [V_main_arg5]
  refine congrArg _ (funext fun a => Fin.ext ?_)
  match a with
  | ⟨0, _⟩ => show win0_3.index t (0 : Fin 2) * 256 + 1 * e.val = e.val; omega
  | ⟨1, _⟩ => show win0_3.index t (1 : Fin 2) * 256 + 1 * k.val = k.val; omega

/-- The weight vector's window holds the whole vector. -/
theorem w3blk_apply (c : Dev nD) (t : Fin cfg0.N) (d : Fin 256) :
    w3blk m c t (ix1 d) = m ((c : Thread nD τ).loc main_arg6) (ix1 d) := by
  have e0 := idx4 t
  show V m c main_arg6 (((cfg0.win 4).blk t).view.emb (ix1 d)) = _
  rw [V_main_arg6]
  refine congrArg _ (funext fun a => Fin.ext ?_)
  match a with
  | ⟨0, _⟩ => show win0_4.index t (0 : Fin 1) * 256 + 1 * d.val = d.val; omega

/-- The mask laid out as [16, 1, 1024], as the region finds it: entry (b, 0, l) is the mask's (b, l). -/
theorem V_main_v0 (c : Dev nD) : (V m c main_v0 : S16x1x1024.Idx → Elt F .f32)
    = broadcastInDim S16x1x1024 ![0, 2] bcast_S16x1024_S16x1x1024_0_2 (m ((c : Thread nD τ).loc main_arg1)) := by
  dsimp only [V, V0]
  simp only [main_part0_ops0, List.flatten_cons, List.flatten_nil, List.append_nil]
  after_results

/-- The mask block of point `t` is batch `t / 2` of the mask. -/
theorem mblk_apply (c : Dev nD) (t : Fin cfg0.N) (l : Fin 1024) :
    mblk m c t (ix3 0 0 l) = m ((c : Thread nD τ).loc main_arg1) (ix2 (batchOf t) l) := by
  obtain ⟨e0, e1, e2⟩ := idx1 t
  show (V m c main_v0 : S16x1x1024.Idx → Elt F .f32) (((cfg0.win 1).blk t).view.emb (ix3 0 0 l)) = _
  rw [V_main_v0]
  refine broadcastInDim_apply _ bcast_S16x1024_S16x1x1024_0_2 _ _ (ix2 (batchOf t) l) fun a => ?_
  match a with
  | ⟨0, _⟩ =>
    show t.val / 2 = if (16 : Nat) = 1 then 0 else win0_1.index t (0 : Fin 3) * 1 + 1 * 0
    rw [if_neg (by decide)]; omega
  | ⟨1, _⟩ =>
    show l.val = if (1024 : Nat) = 1 then 0 else win0_1.index t (2 : Fin 3) * 1024 + 1 * l.val
    rw [if_neg (by decide)]; omega

/-! ## The output blocks -/

/-- The probabilities block of point `t` is rows 512 (t % 2) … of batch `t / 2`. -/
theorem read_blk5 (c : Dev nD) (G : Buf (Elt F) ((c : Thread nD τ).loc main_v1_0)) (t : Fin cfg0.N) (r : Fin 512) (j : Fin 1024) :
    (((cfg0.win 5).blk t).view.read (Elt F) G : Vec F S1x512x1024 .f32) (ix3 0 r j) = G (ix3 (batchOf t) ⟨512 * (t.val % 2) + r.val, by omega⟩ j) := by
  obtain ⟨e0, e1, e2⟩ := idx5 t
  show G (((cfg0.win 5).blk t).view.emb (ix3 0 r j)) = _
  refine congrArg _ (funext fun a => Fin.ext ?_)
  match a with
  | ⟨0, _⟩ => show win0_5.index t (0 : Fin 3) * 1 + 1 * 0 = t.val / 2; omega
  | ⟨1, _⟩ => show win0_5.index t (1 : Fin 3) * 512 + 1 * r.val = 512 * (t.val % 2) + r.val; omega
  | ⟨2, _⟩ => show win0_5.index t (2 : Fin 3) * 1024 + 1 * j.val = j.val; omega

/-- The context block of point `t` is batch `t / 2`. -/
theorem read_blk6 (c : Dev nD) (G : Buf (Elt F) ((c : Thread nD τ).loc main_v1_1)) (t : Fin cfg0.N) (j : Fin 1024) (d : Fin 256) :
    (((cfg0.win 6).blk t).view.read (Elt F) G : Vec F S1x1024x256 .f32) (ix3 0 j d) = G (ix3 (batchOf t) j d) := by
  obtain ⟨e0, e1, e2⟩ := idx6 t
  show G (((cfg0.win 6).blk t).view.emb (ix3 0 j d)) = _
  refine congrArg _ (funext fun a => Fin.ext ?_)
  match a with
  | ⟨0, _⟩ => show win0_6.index t (0 : Fin 3) * 1 + 1 * 0 = t.val / 2; omega
  | ⟨1, _⟩ => show win0_6.index t (1 : Fin 3) * 1024 + 1 * j.val = j.val; omega
  | ⟨2, _⟩ => show win0_6.index t (2 : Fin 3) * 256 + 1 * d.val = d.val; omega

/-- An index of the probabilities array lies in point `t`'s block iff each coordinate is in the block's range. -/
theorem mem_blk5 (t : Fin cfg0.N) (i : S16x1024x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v1_0).slice (win0_5.rect t)).set ↔ _
  rw [View.set_slice_whole, Rect.mem_set_unit]
  exact Iff.rfl

/-- An index of the context array lies in point `t`'s block iff each coordinate is in the block's range. -/
theorem mem_blk6 (t : Fin cfg0.N) (i : S16x1024x256.Idx) :
    i ∈ ((cfg0.win 6).blk t).view.set ↔ ∀ a : Fin 3, win0_6.index t a * S1x1024x256.size a ≤ (i a).val
      ∧ (i a).val < win0_6.index t a * S1x1024x256.size a + S1x1024x256.size a := by
  show i ∈ ((View.whole main_v1_1).slice (win0_6.rect t)).set ↔ _
  rw [View.set_slice_whole, Rect.mem_set_unit]
  exact Iff.rfl

/-- Entry (b, r, j) of the probabilities array is in the block of point 2 b + r / 512, which writes it back. -/
theorem cover5_idx (i : S16x1024x1024.Idx) :
    ∃ t : Fin cfg0.N, (cfg0.win 5).flush t = true ∧ i ∈ ((cfg0.win 5).blk t).view.set := by
  have hN : cfg0.N = 32 := N_0
  have h0 : (i 0).val < 16 := (i 0).isLt
  have h1 : (i 1).val < 1024 := (i 1).isLt
  have h2 : (i 2).val < 1024 := (i 2).isLt
  obtain ⟨t, ht⟩ : ∃ t : Fin cfg0.N, t.val = 2 * (i 0).val + (i 1).val / 512 := ⟨⟨_, by omega⟩, rfl⟩
  obtain ⟨e0, e1, e2⟩ := idx5 t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- Entry (b, j, d) of the context array is in the block of point 2 b + 1, which writes it back. -/
theorem cover6_idx (i : S16x1024x256.Idx) :
    ∃ t : Fin cfg0.N, (cfg0.win 6).flush t = true ∧ i ∈ ((cfg0.win 6).blk t).view.set := by
  have hN : cfg0.N = 32 := N_0
  have h0 : (i 0).val < 16 := (i 0).isLt
  have h1 : (i 1).val < 1024 := (i 1).isLt
  have h2 : (i 2).val < 256 := (i 2).isLt
  obtain ⟨t, ht⟩ : ∃ t : Fin cfg0.N, t.val = 2 * (i 0).val + 1 := ⟨⟨_, by omega⟩, rfl⟩
  obtain ⟨e0, e1, e2⟩ := idx6 t
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 256 ≤ (i 2).val ∧ (i 2).val < win0_6.index t (2 : Fin 3) * 256 + 256; omega

/-- Every entry of the probabilities array is written back by some point. -/
theorem cover5 (c : Dev nD) : ∀ i : ((cfg0.win 5).arr.view.loc (c.tc : Thread nD τ)).2.ty.Idx,
    ∃ t : Fin cfg0.N, (cfg0.win 5).flush t = true ∧ i ∈ ((cfg0.win 5).blk t).view.set :=
  fun i => cover5_idx i

/-- Every entry of the context array is written back by some point. -/
theorem cover6 (c : Dev nD) : ∀ i : ((cfg0.win 6).arr.view.loc (c.tc : Thread nD τ)).2.ty.Idx,
    ∃ t : Fin cfg0.N, (cfg0.win 6).flush t = true ∧ i ∈ ((cfg0.win 6).blk t).view.set :=
  fun i => cover6_idx i

end Cert.KernelIdeal.Frm

end
-- ==== Proof.KernelIdeal.Tile.lean ====
/-
  The row tile of a grid point read at a coordinate. Grid point `t` has row-tile coordinate `t % 2`;
  its 512 rows, and its 512 mask entries, are those of the batch's blocks from 512 times that
  coordinate on.
-/
import proofs.«420420_j29523605193267_3_alg».proof.Proof.KernelIdeal.TileDefs
import proofs.«420420_j29523605193267_3_alg».proof.Proof.Gen.KernelIdeal.Launch
import Idealize.ShloMosaic.Lib.ValueIdx
import Idealize.ShloMosaic.Lib.Pipeline.Value

noncomputable section

namespace Cert.KernelIdeal.Frm

open Cert.KernelIdeal Cert.KernelIdeal.Gen
open Idealize.ShloMosaic Idealize.ShloMosaic.TcCoe Idealize.SL.Sem Idealize.ShloMosaic.ValueIdx

variable {F : FTy → Type} [FloatOps F]

/-- The grid runs its last axis fastest: point `t` has row-tile coordinate `t % 2`. -/
private theorem tile_coord : ∀ t : Fin grid0.N, ((grid0.coords t) 1).val = t.val % 2 := by decide +kernel

/-- Row `r`, feature `k` of the point's rows is row `512 * (t % 2) + r` of the batch's block. -/
theorem tileRows_apply (t : Fin cfg0.N) (x0 : Vec F S1x1024x256 .f32) (r : Fin 512) (k : Fin 256) :
    tileRows (grid0.coords t) x0 (ix3 0 r k) = x0 (ix3 0 ⟨512 * (t.val % 2) + r.val, by omega⟩ k) := by
  unfold tileRows
  show x0 ((Rect.unit (s := S1x1024x256) (k0_off1 (grid0.coords t)) S1x512x256.size
    (k0_off1_inb (grid0.coords t))).idx (ix3 0 r k)) = _
  refine congrArg x0 (funext fun a => Fin.ext ?_)
  rw [LoadRect.idx_apply]
  show k0_off1 (grid0.coords t) a + 1 * ((ix3 (0 : Fin 1) r k : S1x512x256.Idx) a).val = _
  rw [k0_off1_eq]
  match a with
  | ⟨0, _⟩ => rfl
  | ⟨1, _⟩ =>
    show 512 * ((grid0.coords t) 1).val + 1 * r.val = 512 * (t.val % 2) + r.val
    rw [tile_coord t, Nat.one_mul]
  | ⟨2, _⟩ =>
    show 0 + 1 * k.val = k.val
    rw [Nat.one_mul, Nat.zero_add]

/-- Entry `r` of the point's mask entries is entry `512 * (t % 2) + r` of the batch's mask block. -/
theorem tileMask_apply (t : Fin cfg0.N) (x1 : Vec F S1x1x1024 .f32) (r : Fin 512) :
    tileMask (grid0.coords t) x1 (ix3 0 0 r) = x1 (ix3 0 0 ⟨512 * (t.val % 2) + r.val, by omega⟩) := by
  unfold tileMask
  show x1 ((Rect.unit (s := S1x1x1024) (k0_off2 (grid0.coords t)) S1x1x512.size
    (k0_off2_inb (grid0.coords t))).idx (ix3 0 0 r)) = _
  refine congrArg x1 (funext fun a => Fin.ext ?_)
  rw [LoadRect.idx_apply]
  show k0_off2 (grid0.coords t) a + 1 * ((ix3 (0 : Fin 1) (0 : Fin 1) r : S1x1x512.Idx) a).val = _
  rw [k0_off2_eq]
  match a with
  | ⟨0, _⟩ => rfl
  | ⟨1, _⟩ => rfl
  | ⟨2, _⟩ =>
    show 512 * ((grid0.coords t) 1).val + 1 * r.val = 512 * (t.val % 2) + r.val
    rw [tile_coord t, Nat.one_mul]

end Cert.KernelIdeal.Frm

end
-- ==== Proof.AttnSpec.lean ====
/-
  The mathematics both programs compute, over the extended reals, one batch at a time.

  A batch holds a matrix of 1024 rows of 256 features and a mask of 1024 entries. Each row is
  projected twice (two weight matrices, each followed by the logistic function and the row's mask
  entry): the gated rows. A pair of rows (i, j) gets a logit: the sum over the features of the first
  gating at row i, weighted feature by feature, times the second gating at row j; where the mask
  product of the two rows is not one the logit is pushed down by a large constant, and it is kept
  above a floor. Every row of logits is normalised by the exponential of its distance to the row's
  maximum over the exponentials' sum (a softmax). The context of row j is the second gating at j
  times the probability-weighted sum, over all rows i, of the first gating at i.

  Everything here is a function of plain coordinates: no array shape enters.
-/
import Idealize.ShloMosaic.PureOps.Ideal
import Idealize.ShloMosaic.Lib.ValueIdx

noncomputable section

open scoped BigOperators

namespace Cert.Attn

open Idealize.ShloMosaic Idealize.ShloMosaic.ValueIdx

/-- The large constant that pushes a masked logit down (the float 99999997952). -/
abbrev big : EReal := Ideal.ofBits .f32 0x51BA43B7#32
/-- The float one. -/
abbrev one : EReal := Ideal.ofBits .f32 0x3F800000#32
/-- The floor under every logit (the float -1e10). -/
abbrev floorV : EReal := Ideal.ofBits .f32 0xD01502F9#32
/-- The float minus infinity, where a row's maximum starts. -/
abbrev negInf : EReal := Ideal.ofBits .f32 0xFF800000#32
/-- The float zero. -/
abbrev zero : EReal := Ideal.ofBits .f32 0x00000000#32

/-- A gated row entry: the logistic of row `l` against weight row `e`, times the row's mask entry. -/
def gate (hr : Fin 1024 → Fin 256 → EReal) (W : Fin 256 → Fin 256 → EReal) (mr : Fin 1024 → EReal)
    (l : Fin 1024) (e : Fin 256) : EReal :=
  Ideal.logistic (∑ k : Fin 256, hr l k * W e k) * mr l

/-- The pairing of row `i` of the first gating with row `j` of the second, weighted by `w3`. -/
def pair (s1 s2 : Fin 1024 → Fin 256 → EReal) (w3 : Fin 256 → EReal) (i j : Fin 1024) : EReal :=
  ∑ d : Fin 256, (s1 i d * w3 d) * s2 j d

/-- The masked, floored logit of the pair (i, j). -/
def logit (s1 s2 : Fin 1024 → Fin 256 → EReal) (w3 : Fin 256 → EReal) (mr : Fin 1024 → EReal)
    (i j : Fin 1024) : EReal :=
  max (pair s1 s2 w3 i j * (mr i * mr j) - big * (one - mr i * mr j)) floorV

/-- The largest entry of one row of logits. -/
def rowMax1 (yr : Fin 1024 → EReal) : EReal :=
  (Finset.univ : Finset (Fin 1024)).fold max negInf yr

/-- The exponential of an entry's distance to its row's maximum. -/
def expo1 (yr : Fin 1024 → EReal) (j : Fin 1024) : EReal :=
  Ideal.exp (yr j - rowMax1 yr)

/-- The softmax of one row at column `j`. -/
def prob1 (yr : Fin 1024 → EReal) (j : Fin 1024) : EReal :=
  Ideal.div (expo1 yr j) (∑ j' : Fin 1024, expo1 yr j')

/-- The softmax of row `i` at column `j`. -/
def prob (y : Fin 1024 → Fin 1024 → EReal) (i j : Fin 1024) : EReal :=
  prob1 (y i) j

/-- The context of row `j`, feature `d`. -/
def ctx (p : Fin 1024 → Fin 1024 → EReal) (s1 s2 : Fin 1024 → Fin 256 → EReal)
    (j : Fin 1024) (d : Fin 256) : EReal :=
  s2 j d * ∑ i : Fin 1024, p i j * s1 i d

/-- The probabilities of one batch from its rows, mask and the three weights. -/
def probs (hr : Fin 1024 → Fin 256 → EReal) (mr : Fin 1024 → EReal)
    (W1 W2 : Fin 256 → Fin 256 → EReal) (w3 : Fin 256 → EReal) (i j : Fin 1024) : EReal :=
  prob (logit (gate hr W1 mr) (gate hr W2 mr) w3 mr) i j

/-- The contexts of one batch from its rows, mask and the three weights. -/
def ctxs (hr : Fin 1024 → Fin 256 → EReal) (mr : Fin 1024 → EReal)
    (W1 W2 : Fin 256 → Fin 256 → EReal) (w3 : Fin 256 → EReal) (j : Fin 1024) (d : Fin 256) : EReal :=
  ctx (probs hr mr W1 W2 w3) (gate hr W1 mr) (gate hr W2 mr) j d

/-! ## Arrays seen as rows

The programs hold a batch's rows inside arrays of literal shapes; these are the coordinate views. -/

/-- Batch `b` of a [16, 1024, 256] array as 1024 rows of 256 features. -/
def rows (h : (⟨3, ![16, 1024, 256]⟩ : Shape).Idx → EReal) (b : Fin 16) : Fin 1024 → Fin 256 → EReal :=
  fun l k => h (ix3 b l k)
/-- Batch `b` of a [16, 1024] mask as 1024 entries. -/
def mrow (mk : (⟨2, ![16, 1024]⟩ : Shape).Idx → EReal) (b : Fin 16) : Fin 1024 → EReal :=
  fun l => mk (ix2 b l)
/-- A [256, 256] weight array by (output feature, input feature). -/
def wm (W : (⟨2, ![256, 256]⟩ : Shape).Idx → EReal) : Fin 256 → Fin 256 → EReal :=
  fun e k => W (ix2 e k)
/-- A [256] weight vector by feature. -/
def vec (w : (⟨1, ![256]⟩ : Shape).Idx → EReal) : Fin 256 → EReal :=
  fun d => w (ix1 d)

end Cert.Attn

end
-- ==== Proof.AttnTilesGate.lean ====
/-
  The arithmetic of the kernel body read one entry at a time, over the extended reals.

  Three matrix products each contract the second axis of both operands into a zero accumulator, so an
  entry of the product is the plain sum, over the contracted coordinate, of the operands' products. The
  mask reaches the products as a column: a [1, 1, n] strip cast to [1, n], transposed to [n, 1] and
  repeated along the rows' features or along the other rows. Read at an entry, the second gating of the
  whole batch is the gated row entry of the shared specification; the first gating of the current half
  is the same expression on that half's rows; and the masked logit of a pair is the weighted pairing of
  the two gatings times the mask product, pushed down by the large constant where that product is not one.
-/
import proofs.«420420_j29523605193267_3_alg».proof.Proof.Gen.KernelIdeal.Skeleton
import proofs.«420420_j29523605193267_3_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tiles

open Cert.KernelIdeal Cert.KernelIdeal.Gen Idealize.ShloMosaic Idealize.ShloMosaic.ValueIdx

section Layout
variable {α : Type}

/-- A `[1, 1, n]` array cast to `[1, n]` reads, at `(u, i)`, the operand at `(0, 0, i)`. -/
theorem shapeCast_11a_1a_apply {n : ℕ} (x : (⟨3, ![1, 1, n]⟩ : Shape).Idx → α)
    (h : (⟨3, ![1, 1, n]⟩ : Shape).ShapeCasts ⟨2, ![1, n]⟩) (u : Fin 1) (i : Fin n) :
    shapeCast ⟨2, ![1, n]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * n + i.val = u.val * n + i.val
    simp only [hu, Nat.zero_mul, Nat.zero_add, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask column: a `[1, 1, n]` array cast to `[1, n]` and transposed to `[n, 1]` reads, at `(r, u)`, the
    array at `(0, 0, r)`. -/
theorem column_apply {n : ℕ} (x : (⟨3, ![1, 1, n]⟩ : Shape).Idx → α)
    (hc : (⟨3, ![1, 1, n]⟩ : Shape).ShapeCasts ⟨2, ![1, n]⟩)
    (ht : (⟨2, ![1, n]⟩ : Shape).Transposes [1, 0] ⟨2, ![n, 1]⟩) (r : Fin n) (u : Fin 1) :
    transpose ⟨2, ![n, 1]⟩ [1, 0] (shapeCast ⟨2, ![1, n]⟩ x hc) ht (ix2 r u) = x (ix3 (0 : Fin 1) (0 : Fin 1) r) :=
  (transpose_ix2_apply _ ht r u).trans (shapeCast_11a_1a_apply x hc u r)

end Layout

section Dot
variable {φ₁ φ₂ : FTy}

theorem lhs_tr_0 (M K N : ℕ) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem lhs_tr_1 (M K N : ℕ) (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
theorem rhs_tr_0 (M K N : ℕ) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem rhs_tr_1 (M K N : ℕ) (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A product of a `[M, K]` by a `[N, K]` matrix contracted over the second axis of both, into a zero
    accumulator, read at `(r, c)`: the sum over `k` of the left at `(r, k)` times the right at `(c, k)`. -/
theorem matmul_tr_apply (M K N : ℕ) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_tr_0 M K N _ _
      | ⟨1, _⟩ => exact (lhs_tr_1 M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_tr_0 M K N _ _
      | ⟨1, _⟩ => exact (rhs_tr_1 M K N _ _).trans hk)
  rw [el, er]

end Dot

theorem dot5_eq : dot_S1024x256_S256x256_S1024x256_1_1_0_0_n_n = DotDims.transposedRhs 1024 256 256 := rfl
theorem dot8_eq : dot_S512x256_S256x256_S512x256_1_1_0_0_n_n = DotDims.transposedRhs 512 256 256 := rfl
theorem dot9_eq : dot_S512x256_S1024x256_S512x1024_1_1_0_0_n_n = DotDims.transposedRhs 512 256 1024 := rfl

/-! ## The payloads read at an index -/

/-- The mask column of the current half: entry `r` of the loaded mask strip. -/
theorem pay7_apply (v13 : Vec Ideal S1x1x512 .f32) (r : Fin 512) (u : Fin 1) :
    k0_pay7 (F := Ideal) v13 (ix2 r u) = v13 (ix3 0 0 r) := by
  unfold k0_pay7
  exact column_apply v13 _ _ r u

/-- The second gating of the whole batch: the logistic of a row against a weight row, times the row's mask entry. -/
theorem pay5_apply (v63 : Vec Ideal S1x1024x256 .f32) (v66 : Vec Ideal S256x256 .f32) (v69 : Vec Ideal S1x1x1024 .f32) (l : Fin 1024) (e : Fin 256) :
    k0_pay5 (F := Ideal) v63 v66 v69 (ix2 l e) = Cert.Attn.gate (fun l k => v63 (ix3 0 l k)) (fun e k => v66 (ix2 e k)) (fun l => v69 (ix3 0 0 l)) l e := by
  unfold k0_pay5 Cert.Attn.gate
  dsimp only
  rw [shapeCast_self]
  have hm : FloatOps.matmul dot_S1024x256_S256x256_S1024x256_1_1_0_0_n_n none
      (truncf (F := Ideal) .bf16 (shapeCast S1024x256 v63 shapeCasts_S1x1024x256_S1024x256) bitsLt_bf16_f32)
      (truncf (F := Ideal) .bf16 v66 bitsLt_bf16_f32) (constant (F := Ideal) S1024x256 .f32 0x00000000#32) (ix2 l e)
      = ∑ k : Fin 256, v63 (ix3 0 l k) * v66 (ix2 e k) := by
    rw [dot5_eq]
    refine (matmul_tr_apply 1024 256 256 none _ _ l e).trans (Finset.sum_congr rfl fun k _ => ?_)
    show shapeCast S1024x256 v63 shapeCasts_S1x1024x256_S1024x256 (ix2 l k) * v66 (ix2 e k) = _
    rw [shapeCast_1ab_ab_apply]
  have hc : broadcastTo S1024x256 (transpose S1024x1 [1, 0] (shapeCast S1x1024 v69 shapeCasts_S1x1x1024_S1x1024)
      transposes_S1x1024_p1_0_S1024x1) broadcasts_S1024x1_S1024x256 (ix2 l e) = v69 (ix3 0 0 l) :=
    (broadcastTo_a1_ab_apply _ _ l e).trans (column_apply v69 _ _ l 0)
  show Ideal.logistic (FloatOps.matmul (F := Ideal) _ _ _ _ _ (ix2 l e)) * _ = _
  rw [hm, hc]

/-- The first gating of the current half of the rows. -/
theorem pay8_apply (v6 : Vec Ideal S1x512x256 .f32) (v9 : Vec Ideal S256x256 .f32) (v13 : Vec Ideal S1x1x512 .f32) (r : Fin 512) (e : Fin 256) :
    k0_pay8 (F := Ideal) v6 v9 v13 (ix2 r e) = Ideal.logistic (∑ k : Fin 256, v6 (ix3 0 r k) * v9 (ix2 e k)) * v13 (ix3 0 0 r) := by
  unfold k0_pay8
  have hm : FloatOps.matmul dot_S512x256_S256x256_S512x256_1_1_0_0_n_n none
      (truncf (F := Ideal) .bf16 (shapeCast S512x256 v6 shapeCasts_S1x512x256_S512x256) bitsLt_bf16_f32)
      (truncf (F := Ideal) .bf16 v9 bitsLt_bf16_f32) (constant (F := Ideal) S512x256 .f32 0x00000000#32) (ix2 r e)
      = ∑ k : Fin 256, v6 (ix3 0 r k) * v9 (ix2 e k) := by
    rw [dot8_eq]
    refine (matmul_tr_apply 512 256 256 none _ _ r e).trans (Finset.sum_congr rfl fun k _ => ?_)
    show shapeCast S512x256 v6 shapeCasts_S1x512x256_S512x256 (ix2 r k) * v9 (ix2 e k) = _
    rw [shapeCast_1ab_ab_apply]
  have hc : broadcastTo S512x256 (k0_pay7 (F := Ideal) v13) broadcasts_S512x1_S512x256 (ix2 r e) = v13 (ix3 0 0 r) :=
    (broadcastTo_a1_ab_apply _ _ r e).trans (pay7_apply v13 r 0)
  show Ideal.logistic (FloatOps.matmul (F := Ideal) _ _ _ _ _ (ix2 r e)) * _ = _
  rw [hm, hc]

/-- The masked logits of the current half of the rows against every row, before the floor. -/
theorem pay9_apply (v6 : Vec Ideal S1x512x256 .f32) (v9 : Vec Ideal S256x256 .f32) (v13 : Vec Ideal S1x1x512 .f32) (v19 : Vec Ideal S256 .f32) (v23 : Vec Ideal S1024x256 .f32) (v27 : Vec Ideal S1x1x1024 .f32) (r : Fin 512) (j : Fin 1024) :
    k0_pay9 (F := Ideal) v6 v9 v13 v19 v23 v27 (ix2 r j)
      = (∑ d : Fin 256, (k0_pay8 (F := Ideal) v6 v9 v13 (ix2 r d) * v19 (ix1 d)) * v23 (ix2 j d)) * (v13 (ix3 0 0 r) * v27 (ix3 0 0 j)) - Cert.Attn.big * (Cert.Attn.one - v13 (ix3 0 0 r) * v27 (ix3 0 0 j)) := by
  unfold k0_pay9
  have hm : FloatOps.matmul dot_S512x256_S1024x256_S512x1024_1_1_0_0_n_n none
      (truncf (F := Ideal) .bf16 (mulf (k0_pay8 (F := Ideal) v6 v9 v13)
        (broadcastTo S512x256 (shapeCast S1x256 v19 shapeCasts_S256_S1x256) broadcasts_S1x256_S512x256)) bitsLt_bf16_f32)
      (truncf (F := Ideal) .bf16 v23 bitsLt_bf16_f32) (constant (F := Ideal) S512x1024 .f32 0x00000000#32) (ix2 r j)
      = ∑ d : Fin 256, (k0_pay8 (F := Ideal) v6 v9 v13 (ix2 r d) * v19 (ix1 d)) * v23 (ix2 j d) := by
    rw [dot9_eq]
    refine (matmul_tr_apply 512 256 1024 none _ _ r j).trans (Finset.sum_congr rfl fun d _ => ?_)
    show (k0_pay8 (F := Ideal) v6 v9 v13 (ix2 r d)
      * broadcastTo S512x256 (shapeCast S1x256 v19 shapeCasts_S256_S1x256) broadcasts_S1x256_S512x256 (ix2 r d)) * v23 (ix2 j d) = _
    rw [broadcastTo_1b_ab_apply, shapeCast_a_1a_apply]
  have hr : broadcastTo S512x1024 (k0_pay7 (F := Ideal) v13) broadcasts_S512x1_S512x1024 (ix2 r j) = v13 (ix3 0 0 r) :=
    (broadcastTo_a1_ab_apply _ _ r j).trans (pay7_apply v13 r 0)
  have hj : broadcastTo S512x1024 (shapeCast S1x1024 v27 shapeCasts_S1x1x1024_S1x1024) broadcasts_S1x1024_S512x1024 (ix2 r j)
      = v27 (ix3 0 0 j) :=
    (broadcastTo_1b_ab_apply _ _ r j).trans (shapeCast_11a_1a_apply v27 _ 0 j)
  show FloatOps.matmul (F := Ideal) _ _ _ _ _ (ix2 r j)
      * (broadcastTo S512x1024 (k0_pay7 (F := Ideal) v13) broadcasts_S512x1_S512x1024 (ix2 r j)
        * broadcastTo S512x1024 (shapeCast S1x1024 v27 shapeCasts_S1x1x1024_S1x1024) broadcasts_S1x1024_S512x1024 (ix2 r j))
      - Cert.Attn.big * (Cert.Attn.one
        - broadcastTo S512x1024 (k0_pay7 (F := Ideal) v13) broadcasts_S512x1_S512x1024 (ix2 r j)
          * broadcastTo S512x1024 (shapeCast S1x1024 v27 shapeCasts_S1x1x1024_S1x1024) broadcasts_S1x1024_S512x1024 (ix2 r j)) = _
  rw [hm, hr, hj]

end Cert.KernelIdeal.Tiles

end
-- ==== Proof.AttnTilesSoft.lean ====
/-
  The arithmetic of the kernel body's tiles, read at an index over the extended reals: the row softmax
  of a floored [512, 1024] tile of logits, the same tile stored with a leading unit axis, the
  accumulation of the transposed probabilities against a [512, 256] tile of gated rows, the final
  product of two [1024, 256] arrays, and the zero array an accumulator starts from.
-/
import proofs.«420420_j29523605193267_3_alg».proof.Proof.Gen.KernelIdeal.Skeleton
import proofs.«420420_j29523605193267_3_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tiles

open Cert.KernelIdeal Cert.KernelIdeal.Gen Idealize.ShloMosaic Idealize.ShloMosaic.ValueIdx

/-! ## A reduced vector put back over its rows

A lane reduction of an [a, b] tile leaves a vector [a]; it is viewed as a column [a, 1] and the column
is repeated along the lanes. At (r, j) the result reads the vector at r. -/

/-- An `[a]` vector cast to a column `[a, 1]` reads, at `(i, u)`, the vector at `i`. -/
private theorem soft_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem soft_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: the reduced vector read back at `(r, j)` is the vector at `r`. -/
private theorem soft_keepdims_apply (x : FVec Ideal S512 .f32) (r : Fin 512) (j : Fin 1024) :
    broadcastTo S512x1024 (shapeCast S512x1 x shapeCasts_S512_S512x1) broadcasts_S512x1_S512x1024 (ix2 r j)
      = x (ix1 r) :=
  (soft_broadcastTo_a1_ab_apply _ broadcasts_S512x1_S512x1024 r j).trans
    (soft_shapeCast_a_a1_apply x shapeCasts_S512_S512x1 r 0)

/-! ## The two lane reductions of a [512, 1024] tile -/

/-- The index of a [512, 1024] tile over row `r` with lane `k` inserted is `(r, k)`. -/
private theorem soft_lift (h : S512x1024.Reduces [1] S512) (r : Fin 512) (k : Fin 1024) :
    h.lift (ix1 r) k = ix2 r k := by
  funext a
  match a with
  | ⟨0, _⟩ => exact Fin.ext rfl
  | ⟨1, _⟩ => exact Fin.ext rfl

/-- A row's lane maximum, started from minus infinity. -/
private theorem soft_rowmax_apply (y : FVec Ideal S512x1024 .f32) (h : S512x1024.Reduces [1] S512)
    (hφ : FKind.Formats .f32) (hacc : (0xFF800000#32 : BitVec 32) = FKind.maximumf.neutral .f32 hφ) (r : Fin 512) :
    multiReduction (F := Ideal) .maximumf [1] S512 y 0xFF800000#32 h hφ hacc (ix1 r)
      = Cert.Attn.rowMax1 (fun j' => y (ix2 r j')) := by
  refine (Ideal.multiReduction_maximumf_single y _ h hφ hacc (ix1 r)).trans ?_
  have e : (y ∘ h.lift (ix1 r)) = fun j' : Fin 1024 => y (ix2 r j') :=
    funext fun k => congrArg y (soft_lift h r k)
  rw [e]
  rfl

/-- A row's lane sum. -/
private theorem soft_rowsum_apply (y : FVec Ideal S512x1024 .f32) (h : S512x1024.Reduces [1] S512)
    (hφ : FKind.Formats .f32) (hacc : (0x00000000#32 : BitVec 32) = FKind.add.neutral .f32 hφ) (r : Fin 512) :
    multiReduction (F := Ideal) .add [1] S512 y 0x00000000#32 h hφ hacc (ix1 r)
      = ∑ j' : Fin 1024, y (ix2 r j') := by
  refine (Ideal.multiReduction_add_single y _ h hφ hacc (ix1 r)).trans ?_
  exact Finset.sum_congr rfl fun k _ => congrArg y (soft_lift h r k)

/-- The row softmax of any [512, 1024] tile `y` at `(r, j)`. -/
private theorem soft_softmax_apply (y : FVec Ideal S512x1024 .f32) (h : S512x1024.Reduces [1] S512)
    (hφ : FKind.Formats .f32) (hm : (0xFF800000#32 : BitVec 32) = FKind.maximumf.neutral .f32 hφ)
    (hs : (0x00000000#32 : BitVec 32) = FKind.add.neutral .f32 hφ) (r : Fin 512) (j : Fin 1024) :
    divf
        (exp (subf y (broadcastTo S512x1024 (shapeCast S512x1
          (multiReduction (F := Ideal) .maximumf [1] S512 y 0xFF800000#32 h hφ hm) shapeCasts_S512_S512x1)
          broadcasts_S512x1_S512x1024)))
        (broadcastTo S512x1024 (shapeCast S512x1
          (multiReduction (F := Ideal) .add [1] S512
            (exp (subf y (broadcastTo S512x1024 (shapeCast S512x1
              (multiReduction (F := Ideal) .maximumf [1] S512 y 0xFF800000#32 h hφ hm) shapeCasts_S512_S512x1)
              broadcasts_S512x1_S512x1024)))
            0x00000000#32 h hφ hs) shapeCasts_S512_S512x1) broadcasts_S512x1_S512x1024)
        (ix2 r j)
      = Cert.Attn.prob1 (fun j' => y (ix2 r j')) j := by
  have he : ∀ j' : Fin 1024,
      exp (subf y (broadcastTo S512x1024 (shapeCast S512x1
          (multiReduction (F := Ideal) .maximumf [1] S512 y 0xFF800000#32 h hφ hm) shapeCasts_S512_S512x1)
          broadcasts_S512x1_S512x1024)) (ix2 r j')
        = Cert.Attn.expo1 (fun j' => y (ix2 r j')) j' := fun j' => by
    show Ideal.exp (y (ix2 r j') - broadcastTo S512x1024 (shapeCast S512x1
          (multiReduction (F := Ideal) .maximumf [1] S512 y 0xFF800000#32 h hφ hm) shapeCasts_S512_S512x1)
          broadcasts_S512x1_S512x1024 (ix2 r j')) = _
    rw [soft_keepdims_apply, soft_rowmax_apply]
    rfl
  refine (divf_apply _ _ _).trans ?_
  rw [he, soft_keepdims_apply, soft_rowsum_apply]
  unfold Cert.Attn.prob1
  exact congrArg _ (Finset.sum_congr rfl fun j' _ => he j')

/-! ## The softmax tile -/

/-- The row softmax of the floored tile at `(r, j)`: the exponential of the floored entry's distance to
    its row's maximum, over the row's sum of such exponentials. -/
theorem pay1_apply (v37 : FVec Ideal S512x1024 .f32) (r : Fin 512) (j : Fin 1024) :
    k0_pay1 (F := Ideal) v37 (ix2 r j) = Cert.Attn.prob1 (fun j' => max (v37 (ix2 r j')) Cert.Attn.floorV) j :=
  soft_softmax_apply (maximumf v37 (broadcast S512x1024 (Scalar.ofBits .f32 0xD01502F9#32)))
    reduces_S512x1024_S512 (.inl rfl) rfl rfl r j

/-- The stored tile carries a leading unit axis over the same entries. -/
theorem pay2_apply (v37 : FVec Ideal S512x1024 .f32) (r : Fin 512) (j : Fin 1024) :
    k0_pay2 (F := Ideal) v37 (ix3 0 r j) = k0_pay1 (F := Ideal) v37 (ix2 r j) := by
  unfold k0_pay2
  exact shapeCast_ab_1ab_apply _ shapeCasts_S512x1024_S1x512x1024 0 r j

/-- The final product, stored with a leading unit axis. -/
theorem pay4_apply (v63 v64 : Vec Ideal S1024x256 .f32) (j : Fin 1024) (d : Fin 256) :
    k0_pay4 (F := Ideal) v63 v64 (ix3 0 j d) = v63 (ix2 j d) * v64 (ix2 j d) := by
  unfold k0_pay4
  exact shapeCast_ab_1ab_apply _ shapeCasts_S1024x256_S1x1024x256 0 j d

/-- The array an accumulator starts from is zero everywhere. -/
theorem pay6_apply (j : Fin 1024) (d : Fin 256) : k0_pay6 (F := Ideal) (ix2 j d) = 0 := by
  unfold k0_pay6
  rw [shapeCast_self]
  exact Ideal.ofBits_zero_f32

/-! ## The accumulation: transposed probabilities against the gated rows

The product contracts axis 0 of both operands: the result at `(j, d)` sums, over the tile's rows `r`,
the left operand at `(r, j)` times the right operand at `(r, d)`. -/

/-- On its contracted axis the left operand's index is the contraction coordinate. -/
private theorem soft_lhs_0 (i : S1024x256.Idx) (q : dot_S512x1024_S512x256_S1024x256_0_0_1_1_n_n.contr.Idx) :
    (dot_S512x1024_S512x256_S1024x256_0_0_1_1_n_n.lhsIdx i q 0).val = (q ⟨0, by decide⟩).val :=
  dot_S512x1024_S512x256_S1024x256_0_0_1_1_n_n.lhsIdx_val_of_single rfl i q
/-- On its kept axis the left operand's index is the result's first coordinate. -/
private theorem soft_lhs_1 (i : S1024x256.Idx) (q : dot_S512x1024_S512x256_S1024x256_0_0_1_1_n_n.contr.Idx) :
    (dot_S512x1024_S512x256_S1024x256_0_0_1_1_n_n.lhsIdx i q 1).val = (i 0).val := by
  unfold DotDims.lhsIdx
  rw [dif_neg (show ¬(1 : Fin S512x1024.rank) ∈ dot_S512x1024_S512x256_S1024x256_0_0_1_1_n_n.lhsBatch by decide), dif_pos (show (1 : Fin S512x1024.rank) ∈ dot_S512x1024_S512x256_S1024x256_0_0_1_1_n_n.lhsNonContracting by decide)]
  rfl
/-- On its contracted axis the right operand's index is the contraction coordinate. -/
private theorem soft_rhs_0 (i : S1024x256.Idx) (q : dot_S512x1024_S512x256_S1024x256_0_0_1_1_n_n.contr.Idx) :
    (dot_S512x1024_S512x256_S1024x256_0_0_1_1_n_n.rhsIdx i q 0).val = (q ⟨0, by decide⟩).val :=
  dot_S512x1024_S512x256_S1024x256_0_0_1_1_n_n.rhsIdx_val_of_single rfl i q
/-- On its kept axis the right operand's index is the result's second coordinate. -/
private theorem soft_rhs_1 (i : S1024x256.Idx) (q : dot_S512x1024_S512x256_S1024x256_0_0_1_1_n_n.contr.Idx) :
    (dot_S512x1024_S512x256_S1024x256_0_0_1_1_n_n.rhsIdx i q 1).val = (i 1).val := by
  unfold DotDims.rhsIdx
  rw [dif_neg (show ¬(1 : Fin S512x256.rank) ∈ dot_S512x1024_S512x256_S1024x256_0_0_1_1_n_n.rhsBatch by decide), dif_pos (show (1 : Fin S512x256.rank) ∈ dot_S512x1024_S512x256_S1024x256_0_0_1_1_n_n.rhsNonContracting by decide)]
  rfl

/-- The product into the zero array, read at `(j, d)`. -/
private theorem soft_matmul_apply (P : FVec Ideal S512x1024 .bf16) (Q : FVec Ideal S512x256 .bf16)
    (j : Fin 1024) (d : Fin 256) :
    matmul dot_S512x1024_S512x256_S1024x256_0_0_1_1_n_n none P Q (constant (F := Ideal) S1024x256 .f32 0x00000000#32) (ix2 j d)
      = ∑ r : Fin 512, P (ix2 r j) * Q (ix2 r d) := by
  simp only [matmul]
  rw [Ideal.matmul_constant_zero_apply, ← Equiv.sum_comp (contrEquiv1 dot_S512x1024_S512x256_S1024x256_0_0_1_1_n_n 512 rfl rfl).symm]
  refine Finset.sum_congr rfl fun k _ => ?_
  have hk := contrEquiv1_symm_val dot_S512x1024_S512x256_S1024x256_0_0_1_1_n_n 512 rfl rfl k
  have el : dot_S512x1024_S512x256_S1024x256_0_0_1_1_n_n.lhsIdx (ix2 j d) ((contrEquiv1 dot_S512x1024_S512x256_S1024x256_0_0_1_1_n_n 512 rfl rfl).symm k) = ix2 k j := funext fun a => Fin.ext (by
    match a with
    | ⟨0, _⟩ => exact (soft_lhs_0 _ _).trans hk
    | ⟨1, _⟩ => exact soft_lhs_1 _ _)
  have er : dot_S512x1024_S512x256_S1024x256_0_0_1_1_n_n.rhsIdx (ix2 j d) ((contrEquiv1 dot_S512x1024_S512x256_S1024x256_0_0_1_1_n_n 512 rfl rfl).symm k) = ix2 k d := funext fun a => Fin.ext (by
    match a with
    | ⟨0, _⟩ => exact (soft_rhs_0 _ _).trans hk
    | ⟨1, _⟩ => exact soft_rhs_1 _ _)
  rw [el, er]

/-- The accumulator at `(j, d)` gains the sum, over the tile's rows, of the probability of the pair
    `(r, j)` times the gated row `r` at feature `d`. -/
theorem pay3_apply (v18 : FVec Ideal S512x256 .f32) (v37 : FVec Ideal S512x1024 .f32) (v54 : Vec Ideal S1024x256 .f32)
    (j : Fin 1024) (d : Fin 256) :
    k0_pay3 (F := Ideal) v18 v37 v54 (ix2 j d)
      = v54 (ix2 j d) + ∑ r : Fin 512, k0_pay1 (F := Ideal) v37 (ix2 r j) * v18 (ix2 r d) := by
  unfold k0_pay3
  rw [shapeCast_self]
  refine (addf_apply _ _ _).trans ?_
  rw [soft_matmul_apply]
  rfl

end Cert.KernelIdeal.Tiles

end
-- ==== Proof.AttnTileMath.lean ====
/-
  One grid point's tile against the specification. A grid point handles the 512 rows of a batch that
  start at row `o`: it holds those rows and their mask entries, the batch's whole mask row, the
  weights, and the batch's second gating. From these the body's arithmetic yields the tile's first
  gating, its logits, its probabilities and its share of the context sum; each is the specification's
  function read at the rows `o + r`.
-/
import proofs.«420420_j29523605193267_3_alg».proof.Proof.AttnTilesGate
import proofs.«420420_j29523605193267_3_alg».proof.Proof.AttnTilesSoft

noncomputable section

open scoped BigOperators

namespace Cert.KernelIdeal.Tiles

open Cert.KernelIdeal Cert.KernelIdeal.Gen Idealize.ShloMosaic Idealize.ShloMosaic.ValueIdx

section Tile

variable (x0 : Vec Ideal S1x1024x256 .f32) (x1 : Vec Ideal S1x1x1024 .f32) (x2 x3 : Vec Ideal S256x256 .f32)
  (x4 : Vec Ideal S256 .f32)

/-- The batch's rows by (row, feature). -/
abbrev hrOf : Fin 1024 → Fin 256 → EReal := fun l k => x0 (ix3 0 l k)
/-- The batch's mask by row. -/
abbrev mrOf : Fin 1024 → EReal := fun l => x1 (ix3 0 0 l)
/-- A projection's weights by (output feature, input feature). -/
abbrev wOf (w : Vec Ideal S256x256 .f32) : Fin 256 → Fin 256 → EReal := fun e k => w (ix2 e k)
/-- The feature weights by feature. -/
abbrev vOf : Fin 256 → EReal := fun d => x4 (ix1 d)

/-- The tile's first gating is the specification's first gating at the rows `o + r`. -/
theorem tile_gate (o : ℕ) (ho : o + 512 ≤ 1024) (v6 : Vec Ideal S1x512x256 .f32) (v13 : Vec Ideal S1x1x512 .f32)
    (h6 : ∀ (r : Fin 512) (k : Fin 256), v6 (ix3 0 r k) = x0 (ix3 0 ⟨o + r.val, by omega⟩ k))
    (h13 : ∀ r : Fin 512, v13 (ix3 0 0 r) = x1 (ix3 0 0 ⟨o + r.val, by omega⟩))
    (r : Fin 512) (e : Fin 256) :
    k0_pay8 (F := Ideal) v6 x2 v13 (ix2 r e)
      = Cert.Attn.gate (hrOf x0) (wOf x2) (mrOf x1) ⟨o + r.val, by omega⟩ e := by
  rw [pay8_apply, h13 r]
  unfold Cert.Attn.gate
  exact congrArg (fun s => Ideal.logistic s * x1 (ix3 0 0 ⟨o + r.val, by omega⟩))
    (Finset.sum_congr rfl fun k _ => by rw [h6 r k])

/-- The tile's floored logits are the specification's logits of the rows `o + r` against every row. -/
theorem tile_logit (o : ℕ) (ho : o + 512 ≤ 1024) (v6 : Vec Ideal S1x512x256 .f32) (v13 : Vec Ideal S1x1x512 .f32)
    (s2v : Vec Ideal S1024x256 .f32)
    (h6 : ∀ (r : Fin 512) (k : Fin 256), v6 (ix3 0 r k) = x0 (ix3 0 ⟨o + r.val, by omega⟩ k))
    (h13 : ∀ r : Fin 512, v13 (ix3 0 0 r) = x1 (ix3 0 0 ⟨o + r.val, by omega⟩))
    (hs2 : ∀ (l : Fin 1024) (e : Fin 256), s2v (ix2 l e) = Cert.Attn.gate (hrOf x0) (wOf x3) (mrOf x1) l e)
    (r : Fin 512) (j : Fin 1024) :
    max (k0_pay9 (F := Ideal) v6 x2 v13 x4 s2v x1 (ix2 r j)) Cert.Attn.floorV
      = Cert.Attn.logit (Cert.Attn.gate (hrOf x0) (wOf x2) (mrOf x1)) (Cert.Attn.gate (hrOf x0) (wOf x3) (mrOf x1))
          (vOf x4) (mrOf x1) ⟨o + r.val, by omega⟩ j := by
  have hsum : ∑ d : Fin 256, (k0_pay8 (F := Ideal) v6 x2 v13 (ix2 r d) * x4 (ix1 d)) * s2v (ix2 j d)
      = ∑ d : Fin 256, (Cert.Attn.gate (hrOf x0) (wOf x2) (mrOf x1) ⟨o + r.val, by omega⟩ d * vOf x4 d)
          * Cert.Attn.gate (hrOf x0) (wOf x3) (mrOf x1) j d :=
    Finset.sum_congr rfl fun d _ => by rw [tile_gate x0 x1 x2 o ho v6 v13 h6 h13 r d, hs2 j d]
  rw [pay9_apply, h13 r, hsum]
  rfl

/-- The tile's probabilities are the specification's probabilities at the rows `o + r`. -/
theorem tile_prob (o : ℕ) (ho : o + 512 ≤ 1024) (v6 : Vec Ideal S1x512x256 .f32) (v13 : Vec Ideal S1x1x512 .f32)
    (s2v : Vec Ideal S1024x256 .f32)
    (h6 : ∀ (r : Fin 512) (k : Fin 256), v6 (ix3 0 r k) = x0 (ix3 0 ⟨o + r.val, by omega⟩ k))
    (h13 : ∀ r : Fin 512, v13 (ix3 0 0 r) = x1 (ix3 0 0 ⟨o + r.val, by omega⟩))
    (hs2 : ∀ (l : Fin 1024) (e : Fin 256), s2v (ix2 l e) = Cert.Attn.gate (hrOf x0) (wOf x3) (mrOf x1) l e)
    (r : Fin 512) (j : Fin 1024) :
    k0_pay1 (F := Ideal) (k0_pay9 (F := Ideal) v6 x2 v13 x4 s2v x1) (ix2 r j)
      = Cert.Attn.probs (hrOf x0) (mrOf x1) (wOf x2) (wOf x3) (vOf x4) ⟨o + r.val, by omega⟩ j := by
  rw [pay1_apply]
  unfold Cert.Attn.probs Cert.Attn.prob
  exact congrArg (fun y => Cert.Attn.prob1 y j)
    (funext fun j' => tile_logit x0 x1 x2 x3 x4 o ho v6 v13 s2v h6 h13 hs2 r j')

/-- The accumulator gains the tile's share of the context sum: over the tile's rows, the probability of
    the pair (`o + r`, `j`) times the first gating of row `o + r`. -/
theorem tile_acc (o : ℕ) (ho : o + 512 ≤ 1024) (v6 : Vec Ideal S1x512x256 .f32) (v13 : Vec Ideal S1x1x512 .f32)
    (s2v : Vec Ideal S1024x256 .f32)
    (h6 : ∀ (r : Fin 512) (k : Fin 256), v6 (ix3 0 r k) = x0 (ix3 0 ⟨o + r.val, by omega⟩ k))
    (h13 : ∀ r : Fin 512, v13 (ix3 0 0 r) = x1 (ix3 0 0 ⟨o + r.val, by omega⟩))
    (hs2 : ∀ (l : Fin 1024) (e : Fin 256), s2v (ix2 l e) = Cert.Attn.gate (hrOf x0) (wOf x3) (mrOf x1) l e)
    (acc : Vec Ideal S1024x256 .f32) (j : Fin 1024) (d : Fin 256) :
    k0_pay3 (F := Ideal) (k0_pay8 (F := Ideal) v6 x2 v13) (k0_pay9 (F := Ideal) v6 x2 v13 x4 s2v x1) acc (ix2 j d)
      = acc (ix2 j d) + ∑ r : Fin 512,
          Cert.Attn.probs (hrOf x0) (mrOf x1) (wOf x2) (wOf x3) (vOf x4) ⟨o + r.val, by omega⟩ j
            * Cert.Attn.gate (hrOf x0) (wOf x2) (mrOf x1) ⟨o + r.val, by omega⟩ d := by
  rw [pay3_apply]
  exact congrArg (fun s => acc (ix2 j d) + s) (Finset.sum_congr rfl fun r _ => by
    rw [tile_prob x0 x1 x2 x3 x4 o ho v6 v13 s2v h6 h13 hs2 r j, tile_gate x0 x1 x2 o ho v6 v13 h6 h13 r d])

/-- The batch's second gating, as the body computes it from the whole batch, is the specification's. -/
theorem tile_s2 (l : Fin 1024) (e : Fin 256) :
    k0_pay5 (F := Ideal) x0 x3 x1 (ix2 l e) = Cert.Attn.gate (hrOf x0) (wOf x3) (mrOf x1) l e :=
  pay5_apply x0 x3 x1 l e

end Tile

end Cert.KernelIdeal.Tiles

end
-- ==== Proof.AttnSum.lean ====
/-
  A sum over the 1024 rows taken in two tiles of 512 rows, starting from zero.

  The rows 0 … 1023 are the rows r and 512 + r for r below 512; addition of extended reals is
  commutative and associative with zero as its unit, so the sum over all rows is zero plus the sum
  over the first tile plus the sum over the second. The context of a row is its second gating times
  such a sum.
-/
import proofs.«420420_j29523605193267_3_alg».proof.Proof.AttnSpec
import Mathlib.Algebra.BigOperators.Fin

noncomputable section

open scoped BigOperators

namespace Cert.Attn

/-- The sum over 1024 rows is zero plus the sum over the first 512 plus the sum over the last 512. -/
theorem sum_two_tiles (f : Fin 1024 → EReal) :
    ∑ i : Fin 1024, f i
      = (0 + ∑ r : Fin 512, f ⟨r.val, by omega⟩) + ∑ r : Fin 512, f ⟨512 + r.val, by omega⟩ := by
  rw [zero_add]
  exact Fin.sum_univ_add (a := 512) (b := 512) (fun i : Fin (512 + 512) => f ⟨i.val, i.isLt⟩)

/-- The context of row `j`, feature `d`, with its sum over the rows taken in two tiles. -/
theorem ctx_two_tiles (p : Fin 1024 → Fin 1024 → EReal) (s1 s2 : Fin 1024 → Fin 256 → EReal)
    (j : Fin 1024) (d : Fin 256) :
    Cert.Attn.ctx p s1 s2 j d
      = s2 j d * ((0 + ∑ r : Fin 512, p ⟨r.val, by omega⟩ j * s1 ⟨r.val, by omega⟩ d)
          + ∑ r : Fin 512, p ⟨512 + r.val, by omega⟩ j * s1 ⟨512 + r.val, by omega⟩ d) := by
  unfold Cert.Attn.ctx
  rw [sum_two_tiles (fun i => p i j * s1 i d)]

end Cert.Attn

end
-- ==== Proof.AttnArrays.lean ====
/-
  The two results as whole arrays: the probabilities [16, 1024, 1024] and the contexts [16, 1024, 256],
  each entry the batch's specification at the entry's coordinates.
-/
import proofs.«420420_j29523605193267_3_alg».proof.Proof.AttnSpec

noncomputable section

namespace Cert.Attn

open Idealize.ShloMosaic Idealize.ShloMosaic.ValueIdx

/-- The probability array: entry (b, i, j) is batch `b`'s softmax of row `i` at column `j`. -/
def scoresArr (h : (⟨3, ![16, 1024, 256]⟩ : Shape).Idx → EReal) (mk : (⟨2, ![16, 1024]⟩ : Shape).Idx → EReal)
    (W1 W2 : (⟨2, ![256, 256]⟩ : Shape).Idx → EReal) (w3 : (⟨1, ![256]⟩ : Shape).Idx → EReal) :
    (⟨3, ![16, 1024, 1024]⟩ : Shape).Idx → EReal :=
  fun i => probs (rows h ⟨(i 0).val, (i 0).isLt⟩) (mrow mk ⟨(i 0).val, (i 0).isLt⟩) (wm W1) (wm W2) (vec w3)
    ⟨(i 1).val, (i 1).isLt⟩ ⟨(i 2).val, (i 2).isLt⟩

/-- The context array: entry (b, j, d) is batch `b`'s context of row `j`, feature `d`. -/
def ctxArr (h : (⟨3, ![16, 1024, 256]⟩ : Shape).Idx → EReal) (mk : (⟨2, ![16, 1024]⟩ : Shape).Idx → EReal)
    (W1 W2 : (⟨2, ![256, 256]⟩ : Shape).Idx → EReal) (w3 : (⟨1, ![256]⟩ : Shape).Idx → EReal) :
    (⟨3, ![16, 1024, 256]⟩ : Shape).Idx → EReal :=
  fun i => ctxs (rows h ⟨(i 0).val, (i 0).isLt⟩) (mrow mk ⟨(i 0).val, (i 0).isLt⟩) (wm W1) (wm W2) (vec w3)
    ⟨(i 1).val, (i 1).isLt⟩ ⟨(i 2).val, (i 2).isLt⟩

theorem scoresArr_ix (h mk W1 W2 w3) (b : Fin 16) (i j : Fin 1024) :
    scoresArr h mk W1 W2 w3 (ix3 b i j) = probs (rows h b) (mrow mk b) (wm W1) (wm W2) (vec w3) i j := rfl

theorem ctxArr_ix (h mk W1 W2 w3) (b : Fin 16) (j : Fin 1024) (d : Fin 256) :
    ctxArr h mk W1 W2 w3 (ix3 b j d) = ctxs (rows h b) (mrow mk b) (wm W1) (wm W2) (vec w3) j d := rfl

end Cert.Attn

end
-- ==== Proof.KernelIdeal.Points.lean ====
/-
  What the buffers hold after each grid point, in the specification's terms, at the ideal instance.
  Point t works on batch t / 2 and on the row tile that starts at row 512 (t mod 2). After a first tile
  the first scratch holds the batch's second gating and the accumulator the tile's share of the context
  sum over zero; the scores block holds the tile's rows of the batch's probabilities at every point;
  after a last tile the context block holds the batch's contexts: the second gating times the sum of
  the two tiles' shares, which is the sum over all 1024 rows.
-/
import proofs.«420420_j29523605193267_3_alg».proof.Proof.KernelIdeal.Pieces
import proofs.«420420_j29523605193267_3_alg».proof.Proof.KernelIdeal.Blocks
import proofs.«420420_j29523605193267_3_alg».proof.Proof.KernelIdeal.Tile
import proofs.«420420_j29523605193267_3_alg».proof.Proof.AttnTileMath
import proofs.«420420_j29523605193267_3_alg».proof.Proof.AttnSum
import proofs.«420420_j29523605193267_3_alg».proof.Proof.AttnArrays

set_option maxRecDepth 16384

noncomputable section

namespace Cert.KernelIdeal.Frm

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The five float arguments as launched. -/
abbrev a0 (c : Dev nD) : (⟨3, ![16, 1024, 256]⟩ : Shape).Idx → EReal := m ((c : Thread nD τ).loc main_arg0)
abbrev a1 (c : Dev nD) : (⟨2, ![16, 1024]⟩ : Shape).Idx → EReal := m ((c : Thread nD τ).loc main_arg1)
abbrev a4 (c : Dev nD) : (⟨2, ![256, 256]⟩ : Shape).Idx → EReal := m ((c : Thread nD τ).loc main_arg4)
abbrev a5 (c : Dev nD) : (⟨2, ![256, 256]⟩ : Shape).Idx → EReal := m ((c : Thread nD τ).loc main_arg5)
abbrev a6 (c : Dev nD) : (⟨1, ![256]⟩ : Shape).Idx → EReal := m ((c : Thread nD τ).loc main_arg6)

/-! ## The point's blocks are the batch's rows -/

theorem hr_eq (c : Dev nD) (t : Fin cfg0.N) : hrOf (hblk m c t) = Cert.Attn.rows (a0 m c) (batchOf t) :=
  funext fun l => funext fun k => hblk_apply m c t l k
theorem mr_eq (c : Dev nD) (t : Fin cfg0.N) : mrOf (mblk m c t) = Cert.Attn.mrow (a1 m c) (batchOf t) :=
  funext fun l => mblk_apply m c t l
theorem w1_eq (c : Dev nD) (t : Fin cfg0.N) : wOf (w1blk m c t) = Cert.Attn.wm (a4 m c) :=
  funext fun e => funext fun k => w1blk_apply m c t e k
theorem w2_eq (c : Dev nD) (t : Fin cfg0.N) : wOf (w2blk m c t) = Cert.Attn.wm (a5 m c) :=
  funext fun e => funext fun k => w2blk_apply m c t e k
theorem v_eq (c : Dev nD) (t : Fin cfg0.N) : vOf (w3blk m c t) = Cert.Attn.vec (a6 m c) :=
  funext fun d => w3blk_apply m c t d

/-- The point before an odd point, in the same batch. -/
abbrev predPt (t : Fin cfg0.N) : Fin cfg0.N := ⟨t.val - 1, Nat.lt_of_le_of_lt (Nat.sub_le _ _) t.isLt⟩
theorem batchOf_pred (t : Fin cfg0.N) (h1 : t.val % 2 = 1) : batchOf (predPt t) = batchOf t :=
  Fin.ext (by show (t.val - 1) / 2 = t.val / 2; omega)

/-! ## After a first tile -/

/-- The first scratch holds the batch's second gating. -/
theorem s2_even (c : Dev nD) (t : Fin cfg0.N) (h0 : t.val % 2 = 0) (l : Fin 1024) (e : Fin 256) :
    (outsAt0 m c t.val t.isLt).2.2.1 (ix2 l e) = Cert.Attn.gate (Cert.Attn.rows (a0 m c) (batchOf t)) (Cert.Attn.wm (a5 m c)) (Cert.Attn.mrow (a1 m c) (batchOf t)) l e := by
  have h1 : ¬t.val % 2 = 1 := by omega
  rw [outsAt0_A m c t h0 h1]; dsimp only
  refine (congrFun (s2_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 l e)).trans ?_
  refine (tile_s2 (hblk m c t) (mblk m c t) (w2blk m c t) l e).trans ?_
  simp only [hr_eq m c t, mr_eq m c t, w1_eq m c t, w2_eq m c t, v_eq m c t]

/-- The accumulator holds the tile's share of the context sum, over zero. -/
theorem acc_even (c : Dev nD) (t : Fin cfg0.N) (h0 : t.val % 2 = 0) (j : Fin 1024) (d : Fin 256) :
    (outsAt0 m c t.val t.isLt).2.2.2 (ix2 j d)
      = 0 + ∑ r : Fin 512, Cert.Attn.probs (Cert.Attn.rows (a0 m c) (batchOf t)) (Cert.Attn.mrow (a1 m c) (batchOf t)) (Cert.Attn.wm (a4 m c)) (Cert.Attn.wm (a5 m c)) (Cert.Attn.vec (a6 m c)) ⟨512 * (t.val % 2) + r.val, by omega⟩ j * Cert.Attn.gate (Cert.Attn.rows (a0 m c) (batchOf t)) (Cert.Attn.wm (a4 m c)) (Cert.Attn.mrow (a1 m c) (batchOf t)) ⟨512 * (t.val % 2) + r.val, by omega⟩ d := by
  have h1 : ¬t.val % 2 = 1 := by omega
  rw [outsAt0_A m c t h0 h1]; dsimp only
  refine (congrFun (acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 j d)).trans ?_
  refine (tile_acc (hblk m c t) (mblk m c t) (w1blk m c t) (w2blk m c t) (w3blk m c t) (512 * (t.val % 2)) (by omega) (tileRows (grid0.coords t) (hblk m c t)) (tileMask (grid0.coords t) (mblk m c t)) (k0_pay5 (F := Ideal) (hblk m c t) (w2blk m c t) (mblk m c t)) (tileRows_apply t (hblk m c t)) (tileMask_apply t (mblk m c t)) (tile_s2 (hblk m c t) (mblk m c t) (w2blk m c t)) (k0_pay6 (F := Ideal)) j d).trans ?_
  rw [pay6_apply]
  simp only [hr_eq m c t, mr_eq m c t, w1_eq m c t, w2_eq m c t, v_eq m c t]

/-- The scores block holds the tile's rows of the batch's probabilities. -/
theorem scores_even (c : Dev nD) (t : Fin cfg0.N) (h0 : t.val % 2 = 0) (r : Fin 512) (j : Fin 1024) :
    (outsAt0 m c t.val t.isLt).1 (ix3 0 r j) = Cert.Attn.probs (Cert.Attn.rows (a0 m c) (batchOf t)) (Cert.Attn.mrow (a1 m c) (batchOf t)) (Cert.Attn.wm (a4 m c)) (Cert.Attn.wm (a5 m c)) (Cert.Attn.vec (a6 m c)) ⟨512 * (t.val % 2) + r.val, by omega⟩ j := by
  have h1 : ¬t.val % 2 = 1 := by omega
  rw [outsAt0_A m c t h0 h1]; dsimp only
  refine (congrFun (sc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix3 0 r j)).trans ?_
  refine (pay2_apply _ r j).trans ?_
  refine (tile_prob (hblk m c t) (mblk m c t) (w1blk m c t) (w2blk m c t) (w3blk m c t) (512 * (t.val % 2)) (by omega) (tileRows (grid0.coords t) (hblk m c t)) (tileMask (grid0.coords t) (mblk m c t)) (k0_pay5 (F := Ideal) (hblk m c t) (w2blk m c t) (mblk m c t)) (tileRows_apply t (hblk m c t)) (tileMask_apply t (mblk m c t)) (tile_s2 (hblk m c t) (mblk m c t) (w2blk m c t)) r j).trans ?_
  simp only [hr_eq m c t, mr_eq m c t, w1_eq m c t, w2_eq m c t, v_eq m c t]

/-! ## After a last tile -/

/-- What the first tile left in the first scratch is the second gating in the last tile's own blocks' terms. -/
theorem s2_pred (c : Dev nD) (t : Fin cfg0.N) (h1 : t.val % 2 = 1) (l : Fin 1024) (e : Fin 256) :
    (outsAt0 m c (t.val - 1) (Nat.lt_of_le_of_lt (Nat.sub_le _ _) t.isLt)).2.2.1 (ix2 l e)
      = Cert.Attn.gate (hrOf (hblk m c t)) (wOf (w2blk m c t)) (mrOf (mblk m c t)) l e := by
  refine (s2_even m c (predPt t) (by show (t.val - 1) % 2 = 0; omega) l e).trans ?_
  rw [batchOf_pred t h1]
  simp only [hr_eq m c t, mr_eq m c t, w1_eq m c t, w2_eq m c t, v_eq m c t]

/-- The scores block holds the tile's rows of the batch's probabilities. -/
theorem scores_odd (c : Dev nD) (t : Fin cfg0.N) (h1 : t.val % 2 = 1) (r : Fin 512) (j : Fin 1024) :
    (outsAt0 m c t.val t.isLt).1 (ix3 0 r j) = Cert.Attn.probs (Cert.Attn.rows (a0 m c) (batchOf t)) (Cert.Attn.mrow (a1 m c) (batchOf t)) (Cert.Attn.wm (a4 m c)) (Cert.Attn.wm (a5 m c)) (Cert.Attn.vec (a6 m c)) ⟨512 * (t.val % 2) + r.val, by omega⟩ j := by
  have h0 : ¬t.val % 2 = 0 := by omega
  rw [outsAt0_C m c t h0 h1]; dsimp only
  refine (congrFun (sc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 r j)).trans ?_
  refine (pay2_apply _ r j).trans ?_
  refine (tile_prob (hblk m c t) (mblk m c t) (w1blk m c t) (w2blk m c t) (w3blk m c t) (512 * (t.val % 2)) (by omega) (tileRows (grid0.coords t) (hblk m c t)) (tileMask (grid0.coords t) (mblk m c t)) ((outsAt0 m c (t.val - 1) (Nat.lt_of_le_of_lt (Nat.sub_le _ _) t.isLt)).2.2.1) (tileRows_apply t (hblk m c t)) (tileMask_apply t (mblk m c t)) (s2_pred m c t h1) r j).trans ?_
  simp only [hr_eq m c t, mr_eq m c t, w1_eq m c t, w2_eq m c t, v_eq m c t]

/-- At every point the scores block holds the tile's rows of the batch's probabilities. -/
theorem scores_point (c : Dev nD) (t : Fin cfg0.N) (r : Fin 512) (j : Fin 1024) :
    (outsAt0 m c t.val t.isLt).1 (ix3 0 r j) = Cert.Attn.probs (Cert.Attn.rows (a0 m c) (batchOf t)) (Cert.Attn.mrow (a1 m c) (batchOf t)) (Cert.Attn.wm (a4 m c)) (Cert.Attn.wm (a5 m c)) (Cert.Attn.vec (a6 m c)) ⟨512 * (t.val % 2) + r.val, by omega⟩ j := by
  by_cases h0 : t.val % 2 = 0
  · exact scores_even m c t h0 r j
  · exact scores_odd m c t (by omega) r j

/-- After a last tile the context block holds the batch's contexts. -/
theorem ctx_odd (c : Dev nD) (t : Fin cfg0.N) (h1 : t.val % 2 = 1) (j : Fin 1024) (d : Fin 256) :
    (outsAt0 m c t.val t.isLt).2.1 (ix3 0 j d) = Cert.Attn.ctxs (Cert.Attn.rows (a0 m c) (batchOf t)) (Cert.Attn.mrow (a1 m c) (batchOf t)) (Cert.Attn.wm (a4 m c)) (Cert.Attn.wm (a5 m c)) (Cert.Attn.vec (a6 m c)) j d := by
  have h0 : ¬t.val % 2 = 0 := by omega
  rw [outsAt0_C m c t h0 h1]; dsimp only
  refine (congrFun (ctx_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 j d)).trans ?_
  refine (pay4_apply _ _ j d).trans ?_
  rw [tile_acc (hblk m c t) (mblk m c t) (w1blk m c t) (w2blk m c t) (w3blk m c t) (512 * (t.val % 2)) (by omega) (tileRows (grid0.coords t) (hblk m c t)) (tileMask (grid0.coords t) (mblk m c t)) ((outsAt0 m c (t.val - 1) (Nat.lt_of_le_of_lt (Nat.sub_le _ _) t.isLt)).2.2.1) (tileRows_apply t (hblk m c t)) (tileMask_apply t (mblk m c t)) (s2_pred m c t h1) ((outsAt0 m c (t.val - 1) (Nat.lt_of_le_of_lt (Nat.sub_le _ _) t.isLt)).2.2.2) j d]
  rw [s2_pred m c t h1 j d]
  rw [show (outsAt0 m c (t.val - 1) (Nat.lt_of_le_of_lt (Nat.sub_le _ _) t.isLt)).2.2.2 (ix2 j d) = _ from
    acc_even m c (predPt t) (by show (t.val - 1) % 2 = 0; omega) j d, batchOf_pred t h1]
  simp only [hr_eq m c t, mr_eq m c t, w1_eq m c t, w2_eq m c t, v_eq m c t]
  unfold Cert.Attn.ctxs
  rw [Cert.Attn.ctx_two_tiles]
  have e0 : ∀ r : Fin 512, (⟨512 * ((predPt t).val % 2) + r.val, by omega⟩ : Fin 1024) = ⟨r.val, by omega⟩ :=
    fun r => Fin.ext (by show 512 * ((t.val - 1) % 2) + r.val = r.val; omega)
  have e1 : ∀ r : Fin 512, (⟨512 * (t.val % 2) + r.val, by omega⟩ : Fin 1024) = ⟨512 + r.val, by omega⟩ :=
    fun r => Fin.ext (by show 512 * (t.val % 2) + r.val = 512 + r.val; omega)
  simp only [e0, e1]

end Cert.KernelIdeal.Frm

end
-- ==== Proof.KernelIdeal.Arrays.lean ====
/-
  From blocks to arrays, at the ideal instance: every grid point writes its scores block back, the
  512 rows of its tile in its batch, and these blocks tile the probability array; every last tile
  writes its batch's context block back, and these tile the context array. So after the region the
  two arrays hold the specification's probabilities and contexts of the launched arguments.
-/
import proofs.«420420_j29523605193267_3_alg».proof.Proof.KernelIdeal.Points

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- What a point leaves in the scores block is its block of the probability array. -/
theorem blk5_fun (c : Dev nD) (t : Fin cfg0.N) :
    ((outsAt0 m c t.val t.isLt).1 : Vec Ideal S1x512x1024 .f32)
      = (((cfg0.win 5).blk t).view.read (Elt Ideal) (Cert.Attn.scoresArr (a0 m c) (a1 m c) (a4 m c) (a5 m c) (a6 m c)) : Vec Ideal S1x512x1024 .f32) := by
  funext y
  obtain ⟨u, r, j, rfl⟩ : ∃ (u : Fin 1) (r : Fin 512) (j : Fin 1024), y = ix3 u r j := ⟨y 0, y 1, y 2, eq_ix3 y⟩
  obtain rfl : u = 0 := Subsingleton.elim _ _
  rw [scores_point m c t r j, read_blk5 c _ t r j, Cert.Attn.scoresArr_ix]

/-- What a last tile leaves in the context block is its block of the context array. -/
theorem blk6_fun (c : Dev nD) (t : Fin cfg0.N) (h1 : t.val % 2 = 1) :
    ((outsAt0 m c t.val t.isLt).2.1 : Vec Ideal S1x1024x256 .f32)
      = (((cfg0.win 6).blk t).view.read (Elt Ideal) (Cert.Attn.ctxArr (a0 m c) (a1 m c) (a4 m c) (a5 m c) (a6 m c)) : Vec Ideal S1x1024x256 .f32) := by
  funext y
  obtain ⟨u, j, d, rfl⟩ : ∃ (u : Fin 1) (j : Fin 1024) (d : Fin 256), y = ix3 u j d := ⟨y 0, y 1, y 2, eq_ix3 y⟩
  obtain rfl : u = 0 := Subsingleton.elim _ _
  rw [ctx_odd m c t h1 j d, read_blk6 c _ t j d, Cert.Attn.ctxArr_ix]

theorem flushed5_eq (c : Dev nD) (t : Fin cfg0.N) (hf : (cfg0.win 5).flush t = true) :
    (dats m 0 c).flushed 5 t = ((cfg0.win 5).blk t).view.read (Elt Ideal) (Cert.Attn.scoresArr (a0 m c) (a1 m c) (a4 m c) (a5 m c) (a6 m c)) := by
  show (cfg0.win 5).cut (grid0.coords t) ((dats m 0 c).after 5 t) = _
  rw [after0_5]
  exact blk5_fun m c t

theorem flushed6_eq (c : Dev nD) (t : Fin cfg0.N) (hf : (cfg0.win 6).flush t = true) :
    (dats m 0 c).flushed 6 t = ((cfg0.win 6).blk t).view.read (Elt Ideal) (Cert.Attn.ctxArr (a0 m c) (a1 m c) (a4 m c) (a5 m c) (a6 m c)) := by
  show (cfg0.win 6).cut (grid0.coords t) ((dats m 0 c).after 6 t) = _
  rw [after0_6]
  exact blk6_fun m c t ((flush0_6 t).mp hf)

/-- After the region the probability array holds the specification's probabilities. -/
theorem final5 (c : Dev nD) : (dats m 0 c).arrAt 5 cfg0.N = (Cert.Attn.scoresArr (a0 m c) (a1 m c) (a4 m c) (a5 m c) (a6 m c)) :=
  (dats m 0 c).arrAt_eq_of_cover 5 (Cert.Attn.scoresArr (a0 m c) (a1 m c) (a4 m c) (a5 m c) (a6 m c)) (flushed5_eq m c) (cover5 c)

/-- After the region the context array holds the specification's contexts. -/
theorem final6 (c : Dev nD) : (dats m 0 c).arrAt 6 cfg0.N = (Cert.Attn.ctxArr (a0 m c) (a1 m c) (a4 m c) (a5 m c) (a6 m c)) :=
  (dats m 0 c).arrAt_eq_of_cover 6 (Cert.Attn.ctxArr (a0 m c) (a1 m c) (a4 m c) (a5 m c) (a6 m c)) (flushed6_eq m c) (cover6 c)

end Cert.KernelIdeal.Frm

end
-- ==== Proof.AttnLoss.lean ====
/- The tail of the computation shared by the two programs: from the probability array `S`, the integer
   index pairs `x2` and the lengths `x3` to the scalar loss. The two columns of `x2` are sliced out, a negative
   entry is wrapped by adding the axis size, the batch number is put in front, and `S` is read at
   `(b, x2[b,p,0], x2[b,p,1])` and at `(b, x2[b,p,1], x2[b,p,0])`; the position mask is `p < x3[b]`; the summand is
   `mask * (|s - s'| + |(-0.05 * log (s + s')) / ln 10|)`; the loss is the sum of the summand over all `(b, p)`,
   added to zero. Each stage below is the composition of the host operations that compute it, in program order. -/
import proofs.«420420_j29523605193267_3_alg».proof.Proof.Gen.ReferenceIdeal.Read

noncomputable section

namespace Cert.ReferenceIdeal.AttnLoss

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Column 0 of the index pairs: `x2[b, p, 0]`. -/
def col0 (x2 : (⟨S16x2000x2, .i32⟩ : BufTy).Contents (Elt F)) : (⟨S16x2000, .i32⟩ : BufTy).Contents (Elt F) :=
  shapeCast _ (extractStridedSlice S16x2000x1 ![0, 0, 0] x2 slices_S16x2000x2_S16x2000x1_0_0_0 : (⟨S16x2000x1, .i32⟩ : BufTy).Contents (Elt F)) shapeCasts_S16x2000x1_S16x2000

/-- Column 1 of the index pairs: `x2[b, p, 1]`. -/
def col1 (x2 : (⟨S16x2000x2, .i32⟩ : BufTy).Contents (Elt F)) : (⟨S16x2000, .i32⟩ : BufTy).Contents (Elt F) :=
  shapeCast _ (extractStridedSlice S16x2000x1 ![0, 0, 1] x2 slices_S16x2000x2_S16x2000x1_0_0_1 : (⟨S16x2000x1, .i32⟩ : BufTy).Contents (Elt F)) shapeCasts_S16x2000x1_S16x2000

/-- The batch numbers `0 … 15` as a column. -/
def batchIota : (⟨S16x1, .i32⟩ : BufTy).Contents (Elt F) :=
  broadcastInDim S16x1 ![0] bcast_S16_S16x1_0 (iotaInDim S16 32 0 : (⟨S16, .i32⟩ : BufTy).Contents (Elt F))

/-- The batch numbers with a negative one wrapped by adding 16 (none is negative; the program wraps all the same). -/
def batchCol : (⟨S16x1, .i32⟩ : BufTy).Contents (Elt F) :=
  select
    (cmpi .slt (batchIota (F := F)) (broadcastInDim S16x1 ![] bcast_S_S16x1 (constantI S_ 32 0#32 : (⟨S_, .i32⟩ : BufTy).Contents (Elt F))) : (⟨S16x1, .i1⟩ : BufTy).Contents (Elt F))
    (addi (batchIota (F := F)) (broadcastInDim S16x1 ![] bcast_S_S16x1 (constantI S_ 32 16#32 : (⟨S_, .i32⟩ : BufTy).Contents (Elt F))) : (⟨S16x1, .i32⟩ : BufTy).Contents (Elt F))
    (batchIota (F := F))

/-- An index column with each negative entry wrapped by adding the axis size 1024. -/
def wrap (v : (⟨S16x2000, .i32⟩ : BufTy).Contents (Elt F)) : (⟨S16x2000, .i32⟩ : BufTy).Contents (Elt F) :=
  select
    (cmpi .slt v (broadcastInDim S16x2000 ![] bcast_S_S16x2000 (constantI S_ 32 0#32 : (⟨S_, .i32⟩ : BufTy).Contents (Elt F))) : (⟨S16x2000, .i1⟩ : BufTy).Contents (Elt F))
    (addi v (broadcastInDim S16x2000 ![] bcast_S_S16x2000 (constantI S_ 32 1024#32 : (⟨S_, .i32⟩ : BufTy).Contents (Elt F))) : (⟨S16x2000, .i32⟩ : BufTy).Contents (Elt F))
    v

/-- The index triples `(b, p[b, ·], q[b, ·])`: the batch number in front of two index columns. -/
def triples (p q : (⟨S16x2000, .i32⟩ : BufTy).Contents (Elt F)) : (⟨S16x2000x3, .i32⟩ : BufTy).Contents (Elt F) :=
  concatenate S16x2000x3 2
    [⟨S16x2000x1, (broadcastInDim S16x2000x1 ![0, 1] bcast_S16x2000_S16x2000x1_0_1
        (broadcastInDim S16x2000 ![0, 1] bcast_S16x1_S16x2000_0_1 (batchCol (F := F)) : (⟨S16x2000, .i32⟩ : BufTy).Contents (Elt F)) : (⟨S16x2000x1, .i32⟩ : BufTy).Contents (Elt F))⟩,
     ⟨S16x2000x1, (broadcastInDim S16x2000x1 ![0, 1] bcast_S16x2000_S16x2000x1_0_1 p : (⟨S16x2000x1, .i32⟩ : BufTy).Contents (Elt F))⟩,
     ⟨S16x2000x1, (broadcastInDim S16x2000x1 ![0, 1] bcast_S16x2000_S16x2000x1_0_1 q : (⟨S16x2000x1, .i32⟩ : BufTy).Contents (Elt F))⟩]
    concatenates_S16x2000x1_S16x2000x1_S16x2000x1_S16x2000x3_d2

/-- `S` read at the index triples. -/
def gatherAt (S : (⟨S16x1024x1024, .f32⟩ : BufTy).Contents (Elt F)) (ix : (⟨S16x2000x3, .i32⟩ : BufTy).Contents (Elt F)) :
    (⟨S16x2000, .f32⟩ : BufTy).Contents (Elt F) :=
  Host.gather gather_S16x1024x1024_S16x2000x3_S16x2000_n_012_n_n_012_2_111 S ix

/-- The mask `p < x3[b]` as a float: 1 where it holds, 0 where not. -/
def mask (x3 : (⟨S16, .i32⟩ : BufTy).Contents (Elt F)) : (⟨S16x2000, .f32⟩ : BufTy).Contents (Elt F) :=
  uitofp .f32
    (cmpi .slt
      (broadcastInDim S16x2000 ![0, 1] bcast_S1x2000_S16x2000_0_1
        (broadcastInDim S1x2000 ![1] bcast_S2000_S1x2000_1 (iotaInDim S2000 32 0 : (⟨S2000, .i32⟩ : BufTy).Contents (Elt F)) : (⟨S1x2000, .i32⟩ : BufTy).Contents (Elt F)) : (⟨S16x2000, .i32⟩ : BufTy).Contents (Elt F))
      (broadcastInDim S16x2000 ![0, 1] bcast_S16x1_S16x2000_0_1
        (broadcastInDim S16x1 ![0] bcast_S16_S16x1_0 x3 : (⟨S16x1, .i32⟩ : BufTy).Contents (Elt F)) : (⟨S16x2000, .i32⟩ : BufTy).Contents (Elt F)) : (⟨S16x2000, .i1⟩ : BufTy).Contents (Elt F))

/-- The summand of a pair of probabilities: `|s - s'| + |(-0.05 * log (s + s')) / ln 10|`. -/
def summand (s s' : (⟨S16x2000, .f32⟩ : BufTy).Contents (Elt F)) : (⟨S16x2000, .f32⟩ : BufTy).Contents (Elt F) :=
  addf (Host.absf (subf s s'))
    (Host.absf (Host.divf
      (mulf (broadcastInDim S16x2000 ![] bcast_S_S16x2000 (constant S_ .f32 0xBD4CCCCD#32 : (⟨S_, .f32⟩ : BufTy).Contents (Elt F)) : (⟨S16x2000, .f32⟩ : BufTy).Contents (Elt F))
        (Host.log (addf s s')))
      (broadcastInDim S16x2000 ![] bcast_S_S16x2000 (constant S_ .f32 0x40135D8E#32 : (⟨S_, .f32⟩ : BufTy).Contents (Elt F)) : (⟨S16x2000, .f32⟩ : BufTy).Contents (Elt F))))

/-- The loss as one function of the probability array, the index pairs and the lengths. -/
def lossOf (S : (⟨S16x1024x1024, .f32⟩ : BufTy).Contents (Elt F))
    (x2 : (⟨S16x2000x2, .i32⟩ : BufTy).Contents (Elt F))
    (x3 : (⟨S16, .i32⟩ : BufTy).Contents (Elt F)) : (⟨S_, .f32⟩ : BufTy).Contents (Elt F) :=
  Host.reduceAdd
    (mulf (mask x3)
      (summand (gatherAt S (triples (wrap (col0 x2)) (wrap (col1 x2))))
               (gatherAt S (triples (wrap (col1 x2)) (wrap (col0 x2))))))
    (constant S_ .f32 0x00000000#32 : (⟨S_, .f32⟩ : BufTy).Contents (Elt F)) reducesTo_S16x2000_S_d0_1 h_S_

/-- The reference's loss is `lossOf` of its probability array: stage by stage the two sides are the same
    operations applied to the same operands. -/
theorem loss_ref
    (x0 : (⟨S16x1024x256, .f32⟩ : BufTy).Contents (Elt F)) (x1 : (⟨S16x1024, .f32⟩ : BufTy).Contents (Elt F))
    (x2 : (⟨S16x2000x2, .i32⟩ : BufTy).Contents (Elt F)) (x3 : (⟨S16, .i32⟩ : BufTy).Contents (Elt F))
    (x4 x5 : (⟨S256x256, .f32⟩ : BufTy).Contents (Elt F)) (x6 : (⟨S256, .f32⟩ : BufTy).Contents (Elt F)) :
    val_main_v112 (F := F) x0 x1 x2 x3 x4 x5 x6 = lossOf (val_main_v45 (F := F) x0 x1 x4 x5 x6) x2 x3 :=
  rfl

end Cert.ReferenceIdeal.AttnLoss

end
-- ==== Proof.AttnLossKernel.lean ====
/- The kernel's program ends with the same host operations as the reference: from the probability array
   (the custom call's result), the index pairs and the lengths to the scalar loss. Folding the 82 operations
   over any contents of the device's buffers leaves, at the loss's buffer, `lossOf` of the contents of the
   three buffers the chain starts from, and leaves the program's arguments as they were. -/
import proofs.«420420_j29523605193267_3_alg».proof.Proof.Gen.KernelIdeal.Launch
import proofs.«420420_j29523605193267_3_alg».proof.Proof.AttnLoss
import Idealize.ShloMosaic.Lib.StableHlo.Run

noncomputable section

namespace Cert.KernelIdeal.AttnLoss

open Cert.KernelIdeal Cert.KernelIdeal.Gen Idealize.ShloMosaic Idealize.ShloMosaic.TcCoe Idealize.SL.Sem Idealize.ShloMosaic.StableHlo

section Nary3

/-- A family over `Fin 3` given by its three members. -/
def fam3 {α : Fin 3 → Type} (x : α 0) (a : α 1) (b : α 2) : (k : Fin 3) → α k
  | ⟨0, _⟩ => x
  | ⟨1, _⟩ => a
  | ⟨2, _⟩ => b

variable {τ' : Topo} {sig' : RefSig} {Val : EltTy → Type} {x a b y : Ref sig' .tc}

/-- An operation over a literal family of three references leaves at its result buffer its function of the
    three operands' contents, each read at its own reference (the family `fun k => V (![x, a, b] k)` agrees
    with the one given by its three members at each `k`). -/
theorem nary3_result
    (f : ((k : Fin 3) → ((![x, a, b] : Fin 3 → Ref sig' .tc) k).ty.Contents Val) → y.ty.Contents Val) (hxs hy)
    (V : Valuation τ' sig' Val) :
    (nary (τ := τ') ![x, a, b] y f hxs hy).result V (Proc.devRef .tc y)
      = f (fam3 (α := fun k => ((![x, a, b] : Fin 3 → Ref sig' .tc) k).ty.Contents Val)
            (V (Proc.devRef .tc x)) (V (Proc.devRef .tc a)) (V (Proc.devRef .tc b))) := by
  rw [nary_result]; congr 1; funext k; fin_cases k <;> rfl

/-- The same with the result reference kept out of the rewriting index. -/
theorem nary3_result'
    (f : ((k : Fin 3) → ((![x, a, b] : Fin 3 → Ref sig' .tc) k).ty.Contents Val) → y.ty.Contents Val) (hxs hy)
    (V : Valuation τ' sig' Val) :
    (nary (τ := τ') ![x, a, b] y f hxs hy).result V (no_index (Proc.devRef .tc y))
      = f (fam3 (α := fun k => ((![x, a, b] : Fin 3 → Ref sig' .tc) k).ty.Contents Val)
            (V (Proc.devRef .tc x)) (V (Proc.devRef .tc a)) (V (Proc.devRef .tc b))) :=
  nary3_result f hxs hy V

end Nary3

variable {F : FTy → Type} [FloatOps F]

set_option maxRecDepth 8192 in
set_option maxHeartbeats 8000000 in
/-- After the 82 operations the loss's buffer holds `lossOf` of the probability array, the index pairs and the lengths. -/
theorem loss_kernel (Vv : Valuation τ sig (Elt F)) :
    StableHlo.after (List.flatten [main_part0_ops1 (F := F), main_part1_ops0 (F := F)]) Vv (Proc.devRef .tc main_v68)
      = Cert.ReferenceIdeal.AttnLoss.lossOf (Vv (Proc.devRef .tc main_v1_0)) (Vv (Proc.devRef .tc main_arg2)) (Vv (Proc.devRef .tc main_arg3)) := by
  simp only [List.flatten_cons, List.flatten_nil, List.append_nil, List.cons_append, List.nil_append]
  -- every operation's result, read back to the contents of the buffers the chain starts from; the three pieces
  -- of each of the two index arrays are left as they stand (their types are those of the family's members)
  simp (disch := decide) only [after_cons, after_nil,
      nullary_result', unary_result', binary_result', ternary_result', reshape_result', nary3_result',
      nullary_result_ne', unary_result_ne', binary_result_ne', ternary_result_ne', reshape_result_ne', nary_result_ne']
  -- the six pieces, named and read back one by one
  generalize h24 : HloOp.result _ _ (Proc.devRef .tc main_v24) = t24
  generalize h25 : HloOp.result _ _ (Proc.devRef .tc main_v25) = t25
  generalize h26 : HloOp.result _ _ (Proc.devRef .tc main_v26) = t26
  generalize h45 : HloOp.result _ _ (Proc.devRef .tc main_v45) = t45
  generalize h46 : HloOp.result _ _ (Proc.devRef .tc main_v46) = t46
  generalize h47 : HloOp.result _ _ (Proc.devRef .tc main_v47) = t47
  simp (disch := decide) only [after_cons, after_nil,
      nullary_result', unary_result', binary_result', ternary_result', reshape_result', nary3_result',
      nullary_result_ne', unary_result_ne', binary_result_ne', ternary_result_ne', reshape_result_ne', nary_result_ne'] at h24 h25 h26 h45 h46 h47
  subst h24 h25 h26 h45 h46 h47
  rfl

set_option maxRecDepth 8192 in
set_option maxHeartbeats 8000000 in
/-- None of the 82 operations writes an argument of the program: the three the chain reads or passes by are
    as they were. -/
theorem kept_kernel (Vv : Valuation τ sig (Elt F)) :
    StableHlo.after (List.flatten [main_part0_ops1 (F := F), main_part1_ops0 (F := F)]) Vv (Proc.devRef .tc main_arg1)
        = Vv (Proc.devRef .tc main_arg1)
      ∧ StableHlo.after (List.flatten [main_part0_ops1 (F := F), main_part1_ops0 (F := F)]) Vv (Proc.devRef .tc main_arg2)
        = Vv (Proc.devRef .tc main_arg2)
      ∧ StableHlo.after (List.flatten [main_part0_ops1 (F := F), main_part1_ops0 (F := F)]) Vv (Proc.devRef .tc main_arg3)
        = Vv (Proc.devRef .tc main_arg3) := by
  simp only [List.flatten_cons, List.flatten_nil, List.append_nil, List.cons_append, List.nil_append]
  refine ⟨?_, ?_, ?_⟩ <;>
    simp (disch := decide) only [after_cons, after_nil,
      nullary_result_ne', unary_result_ne', binary_result_ne', ternary_result_ne', reshape_result_ne', nary_result_ne']

end Cert.KernelIdeal.AttnLoss

end
-- ==== Proof.KernelIdeal.Value.lean ====
/-
  The idealized program's run with its two results named: the context array at the specification's
  contexts, and the scalar loss at the shared chain of host lines applied to the specification's
  probabilities and the two integer arguments; the seven arguments unchanged.
-/
import proofs.«420420_j29523605193267_3_alg».proof.Proof.KernelIdeal.Arrays
import proofs.«420420_j29523605193267_3_alg».proof.Proof.AttnLossKernel

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The later host lines read the probability array the region left and the two integer arguments as launched. -/
theorem tail_loss (c : Dev nD) :
    Pipeline.afterTail₀ cfgs (dats m) 0 (V0 m) [main_part0_ops1, main_part1_ops0] c main_v68 = (Cert.ReferenceIdeal.AttnLoss.lossOf (F := Ideal) (Cert.Attn.scoresArr (a0 m c) (a1 m c) (a4 m c) (a5 m c) (a6 m c)) (m ((c.tc : Thread nD τ).loc main_arg2)) (m ((c.tc : Thread nD τ).loc main_arg3))) := by
  unfold Pipeline.afterTail₀
  refine (Cert.KernelIdeal.AttnLoss.loss_kernel (F := Ideal) _).trans ?_
  have e5 : (Pipeline.withArrays spec0 c (V0 m c) fun w => (dats m 0 c).arrAt w cfg0.N) (Proc.devRef .tc main_v1_0) = (Cert.Attn.scoresArr (a0 m c) (a1 m c) (a4 m c) (a5 m c) (a6 m c)) :=
    (Pipeline.withArrays_arr spec0 launch0.win.arr_inj c (V0 m c) _ 5).trans (final5 m c)
  have e2 : (Pipeline.withArrays spec0 c (V0 m c) fun w => (dats m 0 c).arrAt w cfg0.N) (Proc.devRef .tc main_arg2) = m ((c.tc : Thread nD τ).loc main_arg2) :=
    (Pipeline.withArrays_of_ne _ c (V0 m c) _ main_arg2 (by exact (by decide : ∀ w, Pipeline.arrRef spec0 w ≠ main_arg2))).trans (V_main_arg2 m c)
  have e3 : (Pipeline.withArrays spec0 c (V0 m c) fun w => (dats m 0 c).arrAt w cfg0.N) (Proc.devRef .tc main_arg3) = m ((c.tc : Thread nD τ).loc main_arg3) :=
    (Pipeline.withArrays_of_ne _ c (V0 m c) _ main_arg3 (by exact (by decide : ∀ w, Pipeline.arrRef spec0 w ≠ main_arg3))).trans (V_main_arg3 m c)
  rw [e5, e2, e3]

/-- Every weakly fair execution of the idealized program terminates with the two results at the specification's values
    and the arguments unchanged. -/
theorem run_values : θ_run defs (onTc (τ := τ) (main (F := Ideal))) ⟨m, fun _ => 0, ρ⟩ (fun r => ∀ c : Dev nD,
      r.2.mem ((c.tc : Thread nD τ).loc main_v1_1) = (Cert.Attn.ctxArr (a0 m c) (a1 m c) (a4 m c) (a5 m c) (a6 m c))
      ∧ r.2.mem ((c.tc : Thread nD τ).loc main_v68) = (Cert.ReferenceIdeal.AttnLoss.lossOf (F := Ideal) (Cert.Attn.scoresArr (a0 m c) (a1 m c) (a4 m c) (a5 m c) (a6 m c)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 6).trans (final6 m c),
    ((h c).2 main_v68 (Pipeline.mem_restRefs_of main_v68 (by decide) (by decide))).trans (tail_loss m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 2).trans (((dats m 0 c).arrAt_in 2 rfl _).trans ((A_eq m c 2).trans (V_main_arg4 m c))),
    ((h c).1 3).trans (((dats m 0 c).arrAt_in 3 rfl _).trans ((A_eq m c 3).trans (V_main_arg5 m c))),
    ((h c).1 4).trans (((dats m 0 c).arrAt_in 4 rfl _).trans ((A_eq m c 4).trans (V_main_arg6 m c)))⟩) (run_main m ρ)

end Cert.KernelIdeal.Frm

end
-- ==== Proof.AttnRefGate.lean ====
/-
  The reference's two gated projections and its masked, floored logits, read one element at a time,
  are the specification's `gate` and `logit`.

  Each projection is a contraction of a row against a weight row, then one over one plus the
  exponential of its negation (the logistic function spelt out), then the row's mask entry. The
  logits contract the first gating (weighted feature by feature) against the second, multiply by the
  mask product of the two rows, subtract the large constant times one minus that product, and take
  the maximum with the floor.
-/
import proofs.«420420_j29523605193267_3_alg».proof.Proof.Gen.ReferenceIdeal.Read
import proofs.«420420_j29523605193267_3_alg».proof.Proof.AttnSpec
import Idealize.ShloMosaic.Lib.IdealHost

noncomputable section

open scoped BigOperators

namespace Cert.ReferenceIdeal.AttnRef

open Cert.ReferenceIdeal Cert.ReferenceIdeal.Read Idealize.ShloMosaic Idealize.ShloMosaic.ValueIdx

/-! ## Where the operands are read -/

/-- The first projection reads row `l` of batch `b` at feature `k`. -/
theorem lidx_v1 (b : Fin 16) (l : Fin 1024) (e k : Fin 256) :
    lidx_main_v1 (ix3 b l e) k = ix3 b l k :=
  funext fun a => Fin.ext (by match a with | ⟨0, _⟩ => rfl | ⟨1, _⟩ => rfl | ⟨2, _⟩ => rfl)

/-- The first projection reads weight row `e` at feature `k`. -/
theorem ridx_v1 (b : Fin 16) (l : Fin 1024) (e k : Fin 256) :
    ridx_main_v1 (ix3 b l e) k = ix2 e k :=
  funext fun a => Fin.ext (by match a with | ⟨0, _⟩ => rfl | ⟨1, _⟩ => rfl)

/-- The mask broadcast over the features reads the mask of row `l` of batch `b`. -/
theorem idx_v8 (b : Fin 16) (l : Fin 1024) (e : Fin 256) :
    idx_main_v0 (idx_main_v8 (ix3 b l e)) = ix2 b l :=
  funext fun a => Fin.ext (by match a with | ⟨0, _⟩ => rfl | ⟨1, _⟩ => rfl)

/-- One over one plus the exponential of the negation is the logistic function. -/
theorem logistic_spelt (x : EReal) : Ideal.div 1 (1 + Ideal.exp (-x)) = Ideal.logistic x := rfl

/-- The first gated projection of the reference is the specification's gate. -/
theorem s1_ref (x0 : (⟨S16x1024x256, .f32⟩ : BufTy).Contents (Elt Ideal))
    (x1 : (⟨S16x1024, .f32⟩ : BufTy).Contents (Elt Ideal))
    (x4 : (⟨S256x256, .f32⟩ : BufTy).Contents (Elt Ideal)) (b : Fin 16) (l : Fin 1024) (e : Fin 256) :
    val_main_v9 (F := Ideal) x0 x1 x4 (ix3 b l e)
      = Cert.Attn.gate (Cert.Attn.rows x0 b) (Cert.Attn.wm x4) (Cert.Attn.mrow x1 b) l e := by
  rw [val_main_v9_apply, val_main_v7_apply, val_main_v6_apply, val_main_cst_0_apply, val_main_v5_apply,
    val_main_v4_apply, val_main_cst_apply, val_main_v3_apply, val_main_v2_apply, val_main_v1_apply,
    val_main_v8_apply, val_main_v0_apply]
  simp only [lidx_v1, ridx_v1, idx_v8, Ideal.mulf_def, Ideal.hostDivf_def, Ideal.addf_def,
    Ideal.hostUnary_exp_def, Ideal.hostNegf_def, Ideal.negf_def, Ideal.ofBits_def, Ideal.ofBits_one_f32,
    logistic_spelt]
  rfl

/-! ## The second projection -/

/-- The second projection reads row `l` of batch `b` at feature `k`. -/
theorem lidx_v10 (b : Fin 16) (l : Fin 1024) (e k : Fin 256) :
    lidx_main_v10 (ix3 b l e) k = ix3 b l k :=
  funext fun a => Fin.ext (by match a with | ⟨0, _⟩ => rfl | ⟨1, _⟩ => rfl | ⟨2, _⟩ => rfl)

/-- The second projection reads weight row `e` at feature `k`. -/
theorem ridx_v10 (b : Fin 16) (l : Fin 1024) (e k : Fin 256) :
    ridx_main_v10 (ix3 b l e) k = ix2 e k :=
  funext fun a => Fin.ext (by match a with | ⟨0, _⟩ => rfl | ⟨1, _⟩ => rfl)

/-- The second mask broadcast over the features reads the mask of row `l` of batch `b`. -/
theorem idx_v17 (b : Fin 16) (l : Fin 1024) (e : Fin 256) :
    idx_main_v0 (idx_main_v17 (ix3 b l e)) = ix2 b l :=
  funext fun a => Fin.ext (by match a with | ⟨0, _⟩ => rfl | ⟨1, _⟩ => rfl)

/-- The second gated projection of the reference is the specification's gate. -/
theorem s2_ref (x0 : (⟨S16x1024x256, .f32⟩ : BufTy).Contents (Elt Ideal))
    (x1 : (⟨S16x1024, .f32⟩ : BufTy).Contents (Elt Ideal))
    (x5 : (⟨S256x256, .f32⟩ : BufTy).Contents (Elt Ideal)) (b : Fin 16) (l : Fin 1024) (e : Fin 256) :
    val_main_v18 (F := Ideal) x0 x1 x5 (ix3 b l e)
      = Cert.Attn.gate (Cert.Attn.rows x0 b) (Cert.Attn.wm x5) (Cert.Attn.mrow x1 b) l e := by
  rw [val_main_v18_apply, val_main_v16_apply, val_main_v15_apply, val_main_cst_2_apply, val_main_v14_apply,
    val_main_v13_apply, val_main_cst_1_apply, val_main_v12_apply, val_main_v11_apply, val_main_v10_apply,
    val_main_v17_apply, val_main_v0_apply]
  simp only [lidx_v10, ridx_v10, idx_v17, Ideal.mulf_def, Ideal.hostDivf_def, Ideal.addf_def,
    Ideal.hostUnary_exp_def, Ideal.hostNegf_def, Ideal.negf_def, Ideal.ofBits_def, Ideal.ofBits_one_f32,
    logistic_spelt]
  rfl

/-! ## The logits -/

/-- The pairing reads the weighted first gating at row `i`, feature `k`. -/
theorem lidx_v22 (b : Fin 16) (i j : Fin 1024) (k : Fin 256) :
    lidx_main_v22 (ix3 b i j) k = ix3 b i k :=
  funext fun a => Fin.ext (by match a with | ⟨0, _⟩ => rfl | ⟨1, _⟩ => rfl | ⟨2, _⟩ => rfl)

/-- The pairing reads the second gating at row `j`, feature `k`. -/
theorem ridx_v22 (b : Fin 16) (i j : Fin 1024) (k : Fin 256) :
    ridx_main_v22 (ix3 b i j) k = ix3 b j k :=
  funext fun a => Fin.ext (by match a with | ⟨0, _⟩ => rfl | ⟨1, _⟩ => rfl | ⟨2, _⟩ => rfl)

/-- The feature weights broadcast over batches and rows read the weight of feature `k`. -/
theorem idx_v20 (b : Fin 16) (i : Fin 1024) (k : Fin 256) :
    idx_main_v19 (idx_main_v20 (ix3 b i k)) = ix1 k :=
  funext fun a => Fin.ext (by match a with | ⟨0, _⟩ => rfl)

/-- The row mask broadcast over the columns reads the mask of row `i`. -/
theorem idx_v25 (b : Fin 16) (i j : Fin 1024) :
    idx_main_v23 (idx_main_v25 (ix3 b i j)) = ix2 b i :=
  funext fun a => Fin.ext (by match a with | ⟨0, _⟩ => rfl | ⟨1, _⟩ => rfl)

/-- The column mask broadcast over the rows reads the mask of row `j`. -/
theorem idx_v26 (b : Fin 16) (i j : Fin 1024) :
    idx_main_v24 (idx_main_v26 (ix3 b i j)) = ix2 b j :=
  funext fun a => Fin.ext (by match a with | ⟨0, _⟩ => rfl | ⟨1, _⟩ => rfl)

/-- The weighted first gating of the reference at row `i`, feature `k`. -/
theorem v21_ref (x0 : (⟨S16x1024x256, .f32⟩ : BufTy).Contents (Elt Ideal))
    (x1 : (⟨S16x1024, .f32⟩ : BufTy).Contents (Elt Ideal))
    (x4 : (⟨S256x256, .f32⟩ : BufTy).Contents (Elt Ideal))
    (x6 : (⟨S256, .f32⟩ : BufTy).Contents (Elt Ideal)) (b : Fin 16) (i : Fin 1024) (k : Fin 256) :
    val_main_v21 (F := Ideal) x0 x1 x4 x6 (ix3 b i k)
      = Cert.Attn.gate (Cert.Attn.rows x0 b) (Cert.Attn.wm x4) (Cert.Attn.mrow x1 b) i k * Cert.Attn.vec x6 k := by
  rw [val_main_v21_apply, s1_ref, val_main_v20_apply, val_main_v19_apply, idx_v20, Ideal.mulf_def]
  rfl

/-- The mask product of the rows `i` and `j` in the reference. -/
theorem v27_ref (x1 : (⟨S16x1024, .f32⟩ : BufTy).Contents (Elt Ideal)) (b : Fin 16) (i j : Fin 1024) :
    val_main_v27 (F := Ideal) x1 (ix3 b i j) = Cert.Attn.mrow x1 b i * Cert.Attn.mrow x1 b j := by
  rw [val_main_v27_apply, val_main_v25_apply, val_main_v23_apply, val_main_v26_apply, val_main_v24_apply,
    idx_v25, idx_v26, Ideal.mulf_def]
  rfl

/-- The pairing of the reference is the specification's pairing. -/
theorem v22_ref (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (b : Fin 16) (i j : Fin 1024) :
    val_main_v22 (F := Ideal) x0 x1 x4 x5 x6 (ix3 b i j)
      = Cert.Attn.pair (Cert.Attn.gate (Cert.Attn.rows x0 b) (Cert.Attn.wm x4) (Cert.Attn.mrow x1 b))
          (Cert.Attn.gate (Cert.Attn.rows x0 b) (Cert.Attn.wm x5) (Cert.Attn.mrow x1 b)) (Cert.Attn.vec x6) i j := by
  rw [val_main_v22_apply]
  unfold Cert.Attn.pair
  refine Finset.sum_congr rfl fun k _ => ?_
  rw [lidx_v22, ridx_v22, v21_ref, s2_ref]

/-- The masked, floored logit of the reference is the specification's logit. -/
theorem logit_ref (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (b : Fin 16) (i j : Fin 1024) :
    val_main_v34 (F := Ideal) x0 x1 x4 x5 x6 (ix3 b i j)
      = Cert.Attn.logit (Cert.Attn.gate (Cert.Attn.rows x0 b) (Cert.Attn.wm x4) (Cert.Attn.mrow x1 b))
          (Cert.Attn.gate (Cert.Attn.rows x0 b) (Cert.Attn.wm x5) (Cert.Attn.mrow x1 b)) (Cert.Attn.vec x6)
          (Cert.Attn.mrow x1 b) i j := by
  rw [val_main_v34_apply, val_main_call0_v1_apply, val_main_call0_v0_apply, val_main_cst_5_apply,
    val_main_v33_apply, val_main_v28_apply, val_main_v32_apply, val_main_v31_apply, val_main_cst_4_apply,
    val_main_v30_apply, val_main_v29_apply, val_main_cst_3_apply, v22_ref, v27_ref]
  simp only [Ideal.maximumf_def, Ideal.subf_def, Ideal.mulf_def, Ideal.ofBits_def]
  unfold Cert.Attn.logit
  exact max_comm _ _

end Cert.ReferenceIdeal.AttnRef

end
-- ==== Proof.AttnRefSoft.lean ====
/-
  The reference's softmax and context stages, read one element at a time.

  Given the floored logits of a batch as a family of rows, the reference takes each row's maximum
  (a fold of the maximum from minus infinity, then a maximum with minus infinity again, which changes
  nothing), subtracts it, exponentiates, sums the row's exponentials from zero, and divides: the row's
  softmax. The context of row j is the second gating at j times the sum, over all rows i, of the
  probability of the pair (i, j) times the first gating at i.

  Both statements are generic in what the earlier stages compute: they take the earlier stages' values
  at an index as hypotheses.
-/
import proofs.«420420_j29523605193267_3_alg».proof.Proof.Gen.ReferenceIdeal.Read
import proofs.«420420_j29523605193267_3_alg».proof.Proof.AttnSpec
import Idealize.ShloMosaic.PureOps.Reduce
import Idealize.ShloMosaic.PureOps.Ideal.Laws
import Idealize.ShloMosaic.Lib.ValueIdx

noncomputable section

open scoped BigOperators

namespace Cert.ReferenceIdeal.AttnRef

open Cert.ReferenceIdeal Cert.ReferenceIdeal.Read Cert.ReferenceIdeal.Gen Idealize.ShloMosaic Idealize.ShloMosaic.ValueIdx

/-- The float minus infinity is the bottom of the extended reals. -/
private theorem soft_negInf : Cert.Attn.negInf = ⊥ := by
  simp [Cert.Attn.negInf, Ideal.ofBits, Ideal.ieee]

/-- Dropping the last axis of a [16, 1024, 1024] array leaves a [16, 1024] one. -/
private theorem soft_reduces : S16x1024x1024.Reduces [2] S16x1024 := by decide

/-- Row (b, i) with column k inserted is the index (b, i, k). -/
private theorem soft_lift (b : Fin 16) (i k : Fin 1024) :
    soft_reduces.lift (ix2 b i) k = ix3 b i k :=
  funext fun a => Fin.ext (by match a with | ⟨0, _⟩ => rfl | ⟨1, _⟩ => rfl | ⟨2, _⟩ => rfl)

/-- The row maximum the reference subtracts, at row (b, i): the fold of the maximum over the row's
    logits from minus infinity (the further maximum with minus infinity changes nothing). -/
private theorem soft_v37 (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (b : Fin 16) (i : Fin 1024) :
    val_main_v37 (F := Ideal) x0 x1 x4 x5 x6 (ix2 b i)
      = Cert.Attn.rowMax1 (fun j => val_main_v34 (F := Ideal) x0 x1 x4 x5 x6 (ix3 b i j)) := by
  rw [val_main_v37_apply, val_main_v36_apply, val_main_cst_7_apply]
  unfold val_main_v35
  generalize val_main_v34 (F := Ideal) x0 x1 x4 x5 x6 = y
  have h := Host.reduce_eq_fold_single (FloatOps.maximumf (F := Ideal) (φ := .f32)) y (val_main_cst_6 (F := Ideal))
    reducesTo_S16x1024x1024_S16x1024_d2 soft_reduces h_S_ (ix2 b i)
  refine (congrArg (FloatOps.maximumf (F := Ideal) (φ := .f32) _) h).trans ?_
  show max Cert.Attn.negInf (Finset.fold max Cert.Attn.negInf (y ∘ soft_reduces.lift (ix2 b i)) Finset.univ) = _
  unfold Cert.Attn.rowMax1
  rw [soft_negInf, max_bot_left]
  exact congrArg (fun f => Finset.fold max ⊥ f Finset.univ) (funext fun k => congrArg y (soft_lift b i k))

/-- Row (b, i) broadcast back along the last axis: the element at (b, i, j) comes from row (b, i). -/
private theorem soft_idx39 (b : Fin 16) (i j : Fin 1024) :
    idx_main_v38 (idx_main_v39 (ix3 b i j)) = ix2 b i :=
  funext fun a => Fin.ext (by match a with | ⟨0, _⟩ => rfl | ⟨1, _⟩ => rfl)

private theorem soft_idx44 (b : Fin 16) (i j : Fin 1024) :
    idx_main_v43 (idx_main_v44 (ix3 b i j)) = ix2 b i :=
  funext fun a => Fin.ext (by match a with | ⟨0, _⟩ => rfl | ⟨1, _⟩ => rfl)

/-- The k-th term of row (b, i)'s sum is the element at (b, i, k). -/
private theorem soft_idx42 (b : Fin 16) (i k : Fin 1024) :
    idx_main_v42 (ix2 b i) k = ix3 b i k :=
  funext fun a => Fin.ext (by match a with | ⟨0, _⟩ => rfl | ⟨1, _⟩ => rfl | ⟨2, _⟩ => rfl)

/-- The exponential of a logit's distance to its row's maximum. -/
private theorem soft_v41 (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (b : Fin 16) (i j : Fin 1024) :
    val_main_v41 (F := Ideal) x0 x1 x4 x5 x6 (ix3 b i j)
      = Cert.Attn.expo1 (fun j => val_main_v34 (F := Ideal) x0 x1 x4 x5 x6 (ix3 b i j)) j := by
  rw [val_main_v41_apply, val_main_v40_apply, val_main_v39_apply, val_main_v38_apply, soft_idx39, soft_v37]
  rfl

/-- The sum of a row's exponentials (the sum starts from the float zero, which adds nothing). -/
private theorem soft_v42 (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (b : Fin 16) (i : Fin 1024) :
    val_main_v42 (F := Ideal) x0 x1 x4 x5 x6 (ix2 b i)
      = ∑ j' : Fin 1024, Cert.Attn.expo1 (fun j => val_main_v34 (F := Ideal) x0 x1 x4 x5 x6 (ix3 b i j)) j' := by
  rw [val_main_v42_apply, val_main_cst_8_apply, Ideal.ofBits_def, Ideal.ofBits_zero_f32, zero_add]
  exact Finset.sum_congr rfl fun k _ => by rw [soft_idx42, soft_v41]

/-- The reference's probabilities are the softmax of the floored logits, row by row. -/
theorem probs_ref_of (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (Y : Fin 16 → Fin 1024 → Fin 1024 → EReal)
    (hY : ∀ (b : Fin 16) (i j : Fin 1024), val_main_v34 (F := Ideal) x0 x1 x4 x5 x6 (ix3 b i j) = Y b i j)
    (b : Fin 16) (i j : Fin 1024) :
    val_main_v45 (F := Ideal) x0 x1 x4 x5 x6 (ix3 b i j) = Cert.Attn.prob (Y b) i j := by
  rw [val_main_v45_apply, val_main_v44_apply, val_main_v43_apply, soft_idx44, soft_v42, soft_v41]
  have hy : (fun j => val_main_v34 (F := Ideal) x0 x1 x4 x5 x6 (ix3 b i j)) = Y b i := funext fun j => hY b i j
  rw [hy]
  rfl

/-- In the context's contraction over the first row axis, term k of the element (b, j, d) pairs the
    probability at (b, k, j) with the first gating at (b, k, d). -/
private theorem soft_lidx113 (b : Fin 16) (j : Fin 1024) (d : Fin 256) (k : Fin 1024) :
    lidx_main_v113 (ix3 b j d) k = ix3 b k j :=
  funext fun a => Fin.ext (by match a with | ⟨0, _⟩ => rfl | ⟨1, _⟩ => rfl | ⟨2, _⟩ => rfl)

private theorem soft_ridx113 (b : Fin 16) (j : Fin 1024) (d : Fin 256) (k : Fin 1024) :
    ridx_main_v113 (ix3 b j d) k = ix3 b k d :=
  funext fun a => Fin.ext (by match a with | ⟨0, _⟩ => rfl | ⟨1, _⟩ => rfl | ⟨2, _⟩ => rfl)

/-- The reference's contexts: the second gating at row j times the probability-weighted sum, over all
    rows i, of the first gating at i. -/
theorem ctx_ref_of (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (S1 S2 : Fin 16 → Fin 1024 → Fin 256 → EReal)
    (P : Fin 16 → Fin 1024 → Fin 1024 → EReal)
    (h1 : ∀ b l e, val_main_v9 (F := Ideal) x0 x1 x4 (ix3 b l e) = S1 b l e)
    (h2 : ∀ b l e, val_main_v18 (F := Ideal) x0 x1 x5 (ix3 b l e) = S2 b l e)
    (hP : ∀ b i j, val_main_v45 (F := Ideal) x0 x1 x4 x5 x6 (ix3 b i j) = P b i j)
    (b : Fin 16) (j : Fin 1024) (d : Fin 256) :
    val_main_v114 (F := Ideal) x0 x1 x4 x5 x6 (ix3 b j d) = Cert.Attn.ctx (P b) (S1 b) (S2 b) j d := by
  rw [val_main_v114_apply, val_main_v113_apply, h2]
  unfold Cert.Attn.ctx
  refine congrArg (S2 b j d * ·) (Finset.sum_congr rfl fun k _ => ?_)
  rw [soft_lidx113, soft_ridx113, hP, h1]

end Cert.ReferenceIdeal.AttnRef

end
-- ==== Proof.AttnRefAll.lean ====
/-
  The reference's probabilities and contexts as functions of its arguments.

  The two gatings and the floored logits of a batch are the specification's gate and logit of the
  batch's rows, mask and weights; the softmax of those logits is the specification's probabilities,
  and the probability-weighted sum of the first gating, times the second, its contexts.
-/
import proofs.«420420_j29523605193267_3_alg».proof.Proof.AttnRefGate
import proofs.«420420_j29523605193267_3_alg».proof.Proof.AttnRefSoft

noncomputable section

namespace Cert.ReferenceIdeal.AttnRef

open Cert.ReferenceIdeal Cert.ReferenceIdeal.Read Idealize.ShloMosaic Idealize.ShloMosaic.ValueIdx

/-- The reference's probabilities at (b, i, j) are the specification's, of batch b's rows, mask and weights. -/
theorem scores_ref (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (b : Fin 16) (i j : Fin 1024) :
    val_main_v45 (F := Ideal) x0 x1 x4 x5 x6 (ix3 b i j)
      = Cert.Attn.probs (Cert.Attn.rows x0 b) (Cert.Attn.mrow x1 b) (Cert.Attn.wm x4) (Cert.Attn.wm x5)
          (Cert.Attn.vec x6) i j :=
  probs_ref_of x0 x1 x4 x5 x6
    (fun b => Cert.Attn.logit (Cert.Attn.gate (Cert.Attn.rows x0 b) (Cert.Attn.wm x4) (Cert.Attn.mrow x1 b))
      (Cert.Attn.gate (Cert.Attn.rows x0 b) (Cert.Attn.wm x5) (Cert.Attn.mrow x1 b)) (Cert.Attn.vec x6)
      (Cert.Attn.mrow x1 b))
    (fun b i j => logit_ref x0 x1 x4 x5 x6 b i j) b i j

/-- The reference's contexts at (b, j, d) are the specification's, of batch b's rows, mask and weights. -/
theorem ctx_ref (x0 : (⟨S16x1024x256, .f32⟩ : BufTy).Contents (Elt Ideal))
    (x1 : (⟨S16x1024, .f32⟩ : BufTy).Contents (Elt Ideal))
    (x4 x5 : (⟨S256x256, .f32⟩ : BufTy).Contents (Elt Ideal))
    (x6 : (⟨S256, .f32⟩ : BufTy).Contents (Elt Ideal)) (b : Fin 16) (j : Fin 1024) (d : Fin 256) :
    val_main_v114 (F := Ideal) x0 x1 x4 x5 x6 (ix3 b j d)
      = Cert.Attn.ctxs (Cert.Attn.rows x0 b) (Cert.Attn.mrow x1 b) (Cert.Attn.wm x4) (Cert.Attn.wm x5)
          (Cert.Attn.vec x6) j d :=
  ctx_ref_of x0 x1 x4 x5 x6
    (fun b => Cert.Attn.gate (Cert.Attn.rows x0 b) (Cert.Attn.wm x4) (Cert.Attn.mrow x1 b))
    (fun b => Cert.Attn.gate (Cert.Attn.rows x0 b) (Cert.Attn.wm x5) (Cert.Attn.mrow x1 b))
    (fun b => Cert.Attn.probs (Cert.Attn.rows x0 b) (Cert.Attn.mrow x1 b) (Cert.Attn.wm x4) (Cert.Attn.wm x5)
      (Cert.Attn.vec x6))
    (fun b l e => s1_ref x0 x1 x4 b l e) (fun b l e => s2_ref x0 x1 x5 b l e)
    (fun b i j => scores_ref x0 x1 x4 x5 x6 b i j) b j d

end Cert.ReferenceIdeal.AttnRef

end
-- ==== Proof.AttnRefValue.lean ====
/-
  The reference's results as whole arrays.

  The contexts the reference returns and the probabilities it holds on the way are, entry by entry,
  the specification's contexts and probabilities of the entry's batch; so each is the specification's
  array of the reference's arguments.
-/
import proofs.«420420_j29523605193267_3_alg».proof.Proof.AttnRefAll
import proofs.«420420_j29523605193267_3_alg».proof.Proof.AttnArrays
import proofs.«420420_j29523605193267_3_alg».proof.Proof.AttnLoss

noncomputable section

namespace Cert.ReferenceIdeal.AttnRef

open Cert.ReferenceIdeal Cert.ReferenceIdeal.Read Cert.ReferenceIdeal.Gen Idealize.ShloMosaic Idealize.ShloMosaic.TcCoe
  Idealize.SL.Sem Idealize.ShloMosaic.StableHlo Idealize.ShloMosaic.ValueIdx

/-- The probabilities the reference computes are the specification's probability array of its arguments. -/
theorem ref_scores (m : (ℓ : Loc nD τ sig) → Buf (Elt Ideal) ℓ) (c : Dev nD) :
    Cert.ReferenceIdeal.Read.val_main_v45 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      = Cert.Attn.scoresArr (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  funext i
  rw [eq_ix3 i]
  exact scores_ref _ _ _ _ _ _ _ _

/-- The contexts the reference returns are the specification's context array of its arguments. -/
theorem ref_ctx (m : (ℓ : Loc nD τ sig) → Buf (Elt Ideal) ℓ) (c : Dev nD) :
    Cert.ReferenceIdeal.Value.res_out0 (F := Ideal) m c
      = Cert.Attn.ctxArr (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (val_main_v114_eq (F := Ideal) m c).trans ?_
  funext i
  rw [eq_ix3 i]
  exact ctx_ref _ _ _ _ _ _ _ _

/-- The loss the reference returns is the loss function of the specification's probability array. -/
theorem ref_loss (m : (ℓ : Loc nD τ sig) → Buf (Elt Ideal) ℓ) (c : Dev nD) :
    Cert.ReferenceIdeal.Value.res_out1 (F := Ideal) m c
      = Cert.ReferenceIdeal.AttnLoss.lossOf (F := Ideal)
          (Cert.Attn.scoresArr (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)))
          (m ((c.tc : Thread nD τ).loc main_arg2)) (m ((c.tc : Thread nD τ).loc main_arg3)) := by
  refine (val_main_v112_eq (F := Ideal) m c).trans ?_
  rw [Cert.ReferenceIdeal.AttnLoss.loss_ref, ref_scores m c]

end Cert.ReferenceIdeal.AttnRef

end
-- ==== Proof.lean ====
/-
  The kernel computes, batch by batch and in two row tiles of 512, a gated self-attention: two gated
  projections of the rows, pairwise logits masked and floored, a row softmax, and for each row the second
  gating times the probability-weighted sum of the first gating over all rows; from the probability array
  a chain of host lines gathers pairs of entries and sums a loss. The reference computes the same with
  whole-batch contractions. Over the extended reals the two agree entry by entry: each tile's softmax rows
  are rows of the whole softmax (a row's maximum and sum run over the full row in both), the context sum
  over the 1024 rows is the sum of the two tiles' shares over zero (sums over the extended reals re-associate),
  and the loss is one and the same function of the probability array and the two integer inputs. No law used
  needs finiteness, so the precondition is never opened.

  The three frames: each kernel program's from its launch (one grid region between one host line and 82 later
  ones), the reference's from its straight-line run. The idealized kernel is the kernel's own text read over the
  extended reals, nothing rewritten, so that claim is trivial.
-/
import proofs.«420420_j29523605193267_3_alg».proof.Defs
import proofs.«420420_j29523605193267_3_alg».proof.Proof.Gen.Kernel
import proofs.«420420_j29523605193267_3_alg».proof.Proof.Gen.KernelIdeal
import proofs.«420420_j29523605193267_3_alg».proof.Proof.Gen.ReferenceIdeal
import proofs.«420420_j29523605193267_3_alg».proof.Proof.Gen.Pre_finite_inputs
import proofs.«420420_j29523605193267_3_alg».proof.Proof.Gen.ReferenceIdeal.Run
import proofs.«420420_j29523605193267_3_alg».proof.Proof.Gen.ReferenceIdeal.Read
import proofs.«420420_j29523605193267_3_alg».proof.Proof.Kernel.Frame
import proofs.«420420_j29523605193267_3_alg».proof.Proof.KernelIdeal.Value
import proofs.«420420_j29523605193267_3_alg».proof.Proof.AttnRefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the context array at the specification's
    contexts and the loss at the shared host chain of the specification's probabilities. -/
theorem algebraic : Cert.algebraic_KernelIdeal_ReferenceIdeal := by
  intro m ρ m' ρ' _ hagree
  refine ⟨_, _, Cert.KernelIdeal.Frm.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.AttnRef.ref_ctx m' c).trans ?_
    rw [(hagree c).1, (hagree c).2.1, (hagree c).2.2.2.2.1, (hagree c).2.2.2.2.2.1, (hagree c).2.2.2.2.2.2]
  · refine (Cert.ReferenceIdeal.AttnRef.ref_loss m' c).trans ?_
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
